-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x512 : Shape := ⟨3, ![64, 32, 512]⟩
abbrev S512x1024 : Shape := ⟨2, ![512, 1024]⟩
abbrev S512 : Shape := ⟨1, ![512]⟩
abbrev S512x512 : Shape := ⟨2, ![512, 512]⟩
abbrev S_ : Shape := ⟨0, ![]⟩

class Facts : Prop where
  bcast_S_S64x32x512 : S_.BroadcastsInDim S64x32x512 (![] : Fin 0 → Fin S64x32x512.rank)
  reducesTo_S64x32x512_S_d0_1_2 : S64x32x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x32x512 .f32) (main_arg1 : FVec F S512x1024 .f32) (main_arg2 : FVec F S512 .f32) (main_arg3 : FVec F S512x512 .f32) (main_arg4 : FVec F S512 .f32) : IVec S_ 1 :=
  let main_v0 : FVec F S64x32x512 .f32 := Host.absf main_arg0
  let main_cst : FVec F S_ .f32 := constant S_ .f32 0x7F800000#32
  let main_v1 : FVec F S64x32x512 .f32 := broadcastInDim S64x32x512 ![] bcast_S_S64x32x512 main_cst
  let main_v2 : IVec S64x32x512 1 := cmpf .olt main_v0 main_v1
  let main_c : IVec S_ 1 := constantI S_ 1 1#1
  let main_v3 : IVec S_ 1 := (fun x v => Host.reduce IntOp.andi x v reducesTo_S64x32x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S64x32x512 : Shape := ⟨3, ![64, 32, 512]⟩
abbrev S512x1024 : Shape := ⟨2, ![512, 1024]⟩
abbrev S512 : Shape := ⟨1, ![512]⟩
abbrev S512x512 : Shape := ⟨2, ![512, 512]⟩
abbrev S1x512 : Shape := ⟨2, ![1, 512]⟩
abbrev S64x992x512 : Shape := ⟨3, ![64, 992, 512]⟩
abbrev S1x32x512 : Shape := ⟨3, ![1, 32, 512]⟩
abbrev S1x992x512 : Shape := ⟨3, ![1, 992, 512]⟩
abbrev S32x512 : Shape := ⟨2, ![32, 512]⟩
abbrev S31x512 : Shape := ⟨2, ![31, 512]⟩
abbrev S30x512 : Shape := ⟨2, ![30, 512]⟩
abbrev S2x512 : Shape := ⟨2, ![2, 512]⟩
abbrev S29x512 : Shape := ⟨2, ![29, 512]⟩
abbrev S3x512 : Shape := ⟨2, ![3, 512]⟩
abbrev S28x512 : Shape := ⟨2, ![28, 512]⟩
abbrev S4x512 : Shape := ⟨2, ![4, 512]⟩
abbrev S27x512 : Shape := ⟨2, ![27, 512]⟩
abbrev S5x512 : Shape := ⟨2, ![5, 512]⟩
abbrev S26x512 : Shape := ⟨2, ![26, 512]⟩
abbrev S6x512 : Shape := ⟨2, ![6, 512]⟩
abbrev S25x512 : Shape := ⟨2, ![25, 512]⟩
abbrev S7x512 : Shape := ⟨2, ![7, 512]⟩
abbrev S24x512 : Shape := ⟨2, ![24, 512]⟩
abbrev S8x512 : Shape := ⟨2, ![8, 512]⟩
abbrev S23x512 : Shape := ⟨2, ![23, 512]⟩
abbrev S9x512 : Shape := ⟨2, ![9, 512]⟩
abbrev S22x512 : Shape := ⟨2, ![22, 512]⟩
abbrev S10x512 : Shape := ⟨2, ![10, 512]⟩
abbrev S21x512 : Shape := ⟨2, ![21, 512]⟩
abbrev S11x512 : Shape := ⟨2, ![11, 512]⟩
abbrev S20x512 : Shape := ⟨2, ![20, 512]⟩
abbrev S12x512 : Shape := ⟨2, ![12, 512]⟩
abbrev S19x512 : Shape := ⟨2, ![19, 512]⟩
abbrev S13x512 : Shape := ⟨2, ![13, 512]⟩
abbrev S18x512 : Shape := ⟨2, ![18, 512]⟩
abbrev S14x512 : Shape := ⟨2, ![14, 512]⟩
abbrev S17x512 : Shape := ⟨2, ![17, 512]⟩
abbrev S15x512 : Shape := ⟨2, ![15, 512]⟩
abbrev S16x512 : Shape := ⟨2, ![16, 512]⟩
abbrev S992x512 : Shape := ⟨2, ![992, 512]⟩

abbrev nBuf : Space → Nat
  | .hbm => 10
  | .vmem => 9
  | .smem => 0
  | _ => 0

abbrev bufTy : (tb : Table) → Fin (tcTables nBuf tb) → BufTy
  | .hbm, ⟨0, _⟩ => ⟨S64x32x512, .f32⟩
  | .hbm, ⟨1, _⟩ => ⟨S512x1024, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S1x512, .f32⟩
  | .hbm, ⟨8, _⟩ => ⟨S1x512, .f32⟩
  | .hbm, ⟨9, _⟩ => ⟨S64x992x512, .f32⟩
  | .local _ .vmem, ⟨0, _⟩ => ⟨S1x32x512, .f32⟩
  | .local _ .vmem, ⟨1, _⟩ => ⟨S1x32x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1x992x512, .f32⟩
  | .local _ .vmem, ⟨8, _⟩ => ⟨S1x992x512, .f32⟩
  | _, _ => ⟨S64x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x992x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S512x1024_S512x512_0_0 : S512x1024.Slices ![0, 0] S512x512
  slices_S512x1024_S512x512_0_512 : S512x1024.Slices ![0, 512] S512x512
  shapeCasts_S512_S1x512 : S512.ShapeCasts S1x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S512x512_p1_0_S512x512 : S512x512.Transposes [1, 0] S512x512
  slices_S32x512_o1_0_S31x512 : S32x512.Slices ![1, 0] S31x512
  slices_S32x512_o0_0_S1x512 : S32x512.Slices ![0, 0] S1x512
  broadcasts_S1x512_S31x512 : S1x512.Broadcasts S31x512
  slices_S32x512_o2_0_S30x512 : S32x512.Slices ![2, 0] S30x512
  concatenates_S1x512_S30x512_S31x512_d0 : Shape.Concatenates [S1x512, S30x512] S31x512 0
  slices_S32x512_o1_0_S1x512 : S32x512.Slices ![1, 0] S1x512
  slices_S32x512_o0_0_S2x512 : S32x512.Slices ![0, 0] S2x512
  slices_S32x512_o3_0_S29x512 : S32x512.Slices ![3, 0] S29x512
  concatenates_S2x512_S29x512_S31x512_d0 : Shape.Concatenates [S2x512, S29x512] S31x512 0
  slices_S32x512_o2_0_S1x512 : S32x512.Slices ![2, 0] S1x512
  slices_S32x512_o0_0_S3x512 : S32x512.Slices ![0, 0] S3x512
  slices_S32x512_o4_0_S28x512 : S32x512.Slices ![4, 0] S28x512
  concatenates_S3x512_S28x512_S31x512_d0 : Shape.Concatenates [S3x512, S28x512] S31x512 0
  slices_S32x512_o3_0_S1x512 : S32x512.Slices ![3, 0] S1x512
  slices_S32x512_o0_0_S4x512 : S32x512.Slices ![0, 0] S4x512
  slices_S32x512_o5_0_S27x512 : S32x512.Slices ![5, 0] S27x512
  concatenates_S4x512_S27x512_S31x512_d0 : Shape.Concatenates [S4x512, S27x512] S31x512 0
  slices_S32x512_o4_0_S1x512 : S32x512.Slices ![4, 0] S1x512
  slices_S32x512_o0_0_S5x512 : S32x512.Slices ![0, 0] S5x512
  slices_S32x512_o6_0_S26x512 : S32x512.Slices ![6, 0] S26x512
  concatenates_S5x512_S26x512_S31x512_d0 : Shape.Concatenates [S5x512, S26x512] S31x512 0
  slices_S32x512_o5_0_S1x512 : S32x512.Slices ![5, 0] S1x512
  slices_S32x512_o0_0_S6x512 : S32x512.Slices ![0, 0] S6x512
  slices_S32x512_o7_0_S25x512 : S32x512.Slices ![7, 0] S25x512
  concatenates_S6x512_S25x512_S31x512_d0 : Shape.Concatenates [S6x512, S25x512] S31x512 0
  slices_S32x512_o6_0_S1x512 : S32x512.Slices ![6, 0] S1x512
  slices_S32x512_o0_0_S7x512 : S32x512.Slices ![0, 0] S7x512
  slices_S32x512_o8_0_S24x512 : S32x512.Slices ![8, 0] S24x512
  concatenates_S7x512_S24x512_S31x512_d0 : Shape.Concatenates [S7x512, S24x512] S31x512 0
  slices_S32x512_o7_0_S1x512 : S32x512.Slices ![7, 0] S1x512
  slices_S32x512_o0_0_S8x512 : S32x512.Slices ![0, 0] S8x512
  slices_S32x512_o9_0_S23x512 : S32x512.Slices ![9, 0] S23x512
  concatenates_S8x512_S23x512_S31x512_d0 : Shape.Concatenates [S8x512, S23x512] S31x512 0
  slices_S32x512_o8_0_S1x512 : S32x512.Slices ![8, 0] S1x512
  slices_S32x512_o0_0_S9x512 : S32x512.Slices ![0, 0] S9x512
  slices_S32x512_o10_0_S22x512 : S32x512.Slices ![10, 0] S22x512
  concatenates_S9x512_S22x512_S31x512_d0 : Shape.Concatenates [S9x512, S22x512] S31x512 0
  slices_S32x512_o9_0_S1x512 : S32x512.Slices ![9, 0] S1x512
  slices_S32x512_o0_0_S10x512 : S32x512.Slices ![0, 0] S10x512
  slices_S32x512_o11_0_S21x512 : S32x512.Slices ![11, 0] S21x512
  concatenates_S10x512_S21x512_S31x512_d0 : Shape.Concatenates [S10x512, S21x512] S31x512 0
  slices_S32x512_o10_0_S1x512 : S32x512.Slices ![10, 0] S1x512
  slices_S32x512_o0_0_S11x512 : S32x512.Slices ![0, 0] S11x512
  slices_S32x512_o12_0_S20x512 : S32x512.Slices ![12, 0] S20x512
  concatenates_S11x512_S20x512_S31x512_d0 : Shape.Concatenates [S11x512, S20x512] S31x512 0
  slices_S32x512_o11_0_S1x512 : S32x512.Slices ![11, 0] S1x512
  slices_S32x512_o0_0_S12x512 : S32x512.Slices ![0, 0] S12x512
  slices_S32x512_o13_0_S19x512 : S32x512.Slices ![13, 0] S19x512
  concatenates_S12x512_S19x512_S31x512_d0 : Shape.Concatenates [S12x512, S19x512] S31x512 0
  slices_S32x512_o12_0_S1x512 : S32x512.Slices ![12, 0] S1x512
  slices_S32x512_o0_0_S13x512 : S32x512.Slices ![0, 0] S13x512
  slices_S32x512_o14_0_S18x512 : S32x512.Slices ![14, 0] S18x512
  concatenates_S13x512_S18x512_S31x512_d0 : Shape.Concatenates [S13x512, S18x512] S31x512 0
  slices_S32x512_o13_0_S1x512 : S32x512.Slices ![13, 0] S1x512
  slices_S32x512_o0_0_S14x512 : S32x512.Slices ![0, 0] S14x512
  slices_S32x512_o15_0_S17x512 : S32x512.Slices ![15, 0] S17x512
  concatenates_S14x512_S17x512_S31x512_d0 : Shape.Concatenates [S14x512, S17x512] S31x512 0
  slices_S32x512_o14_0_S1x512 : S32x512.Slices ![14, 0] S1x512
  slices_S32x512_o0_0_S15x512 : S32x512.Slices ![0, 0] S15x512
  slices_S32x512_o16_0_S16x512 : S32x512.Slices ![16, 0] S16x512
  concatenates_S15x512_S16x512_S31x512_d0 : Shape.Concatenates [S15x512, S16x512] S31x512 0
  slices_S32x512_o15_0_S1x512 : S32x512.Slices ![15, 0] S1x512
  slices_S32x512_o0_0_S16x512 : S32x512.Slices ![0, 0] S16x512
  slices_S32x512_o17_0_S15x512 : S32x512.Slices ![17, 0] S15x512
  concatenates_S16x512_S15x512_S31x512_d0 : Shape.Concatenates [S16x512, S15x512] S31x512 0
  slices_S32x512_o16_0_S1x512 : S32x512.Slices ![16, 0] S1x512
  slices_S32x512_o0_0_S17x512 : S32x512.Slices ![0, 0] S17x512
  slices_S32x512_o18_0_S14x512 : S32x512.Slices ![18, 0] S14x512
  concatenates_S17x512_S14x512_S31x512_d0 : Shape.Concatenates [S17x512, S14x512] S31x512 0
  slices_S32x512_o17_0_S1x512 : S32x512.Slices ![17, 0] S1x512
  slices_S32x512_o0_0_S18x512 : S32x512.Slices ![0, 0] S18x512
  slices_S32x512_o19_0_S13x512 : S32x512.Slices ![19, 0] S13x512
  concatenates_S18x512_S13x512_S31x512_d0 : Shape.Concatenates [S18x512, S13x512] S31x512 0
  slices_S32x512_o18_0_S1x512 : S32x512.Slices ![18, 0] S1x512
  slices_S32x512_o0_0_S19x512 : S32x512.Slices ![0, 0] S19x512
  slices_S32x512_o20_0_S12x512 : S32x512.Slices ![20, 0] S12x512
  concatenates_S19x512_S12x512_S31x512_d0 : Shape.Concatenates [S19x512, S12x512] S31x512 0
  slices_S32x512_o19_0_S1x512 : S32x512.Slices ![19, 0] S1x512
  slices_S32x512_o0_0_S20x512 : S32x512.Slices ![0, 0] S20x512
  slices_S32x512_o21_0_S11x512 : S32x512.Slices ![21, 0] S11x512
  concatenates_S20x512_S11x512_S31x512_d0 : Shape.Concatenates [S20x512, S11x512] S31x512 0
  slices_S32x512_o20_0_S1x512 : S32x512.Slices ![20, 0] S1x512
  slices_S32x512_o0_0_S21x512 : S32x512.Slices ![0, 0] S21x512
  slices_S32x512_o22_0_S10x512 : S32x512.Slices ![22, 0] S10x512
  concatenates_S21x512_S10x512_S31x512_d0 : Shape.Concatenates [S21x512, S10x512] S31x512 0
  slices_S32x512_o21_0_S1x512 : S32x512.Slices ![21, 0] S1x512
  slices_S32x512_o0_0_S22x512 : S32x512.Slices ![0, 0] S22x512
  slices_S32x512_o23_0_S9x512 : S32x512.Slices ![23, 0] S9x512
  concatenates_S22x512_S9x512_S31x512_d0 : Shape.Concatenates [S22x512, S9x512] S31x512 0
  slices_S32x512_o22_0_S1x512 : S32x512.Slices ![22, 0] S1x512
  slices_S32x512_o0_0_S23x512 : S32x512.Slices ![0, 0] S23x512
  slices_S32x512_o24_0_S8x512 : S32x512.Slices ![24, 0] S8x512
  concatenates_S23x512_S8x512_S31x512_d0 : Shape.Concatenates [S23x512, S8x512] S31x512 0
  slices_S32x512_o23_0_S1x512 : S32x512.Slices ![23, 0] S1x512
  slices_S32x512_o0_0_S24x512 : S32x512.Slices ![0, 0] S24x512
  slices_S32x512_o25_0_S7x512 : S32x512.Slices ![25, 0] S7x512
  concatenates_S24x512_S7x512_S31x512_d0 : Shape.Concatenates [S24x512, S7x512] S31x512 0
  slices_S32x512_o24_0_S1x512 : S32x512.Slices ![24, 0] S1x512
  slices_S32x512_o0_0_S25x512 : S32x512.Slices ![0, 0] S25x512
  slices_S32x512_o26_0_S6x512 : S32x512.Slices ![26, 0] S6x512
  concatenates_S25x512_S6x512_S31x512_d0 : Shape.Concatenates [S25x512, S6x512] S31x512 0
  slices_S32x512_o25_0_S1x512 : S32x512.Slices ![25, 0] S1x512
  slices_S32x512_o0_0_S26x512 : S32x512.Slices ![0, 0] S26x512
  slices_S32x512_o27_0_S5x512 : S32x512.Slices ![27, 0] S5x512
  concatenates_S26x512_S5x512_S31x512_d0 : Shape.Concatenates [S26x512, S5x512] S31x512 0
  slices_S32x512_o26_0_S1x512 : S32x512.Slices ![26, 0] S1x512
  slices_S32x512_o0_0_S27x512 : S32x512.Slices ![0, 0] S27x512
  slices_S32x512_o28_0_S4x512 : S32x512.Slices ![28, 0] S4x512
  concatenates_S27x512_S4x512_S31x512_d0 : Shape.Concatenates [S27x512, S4x512] S31x512 0
  slices_S32x512_o27_0_S1x512 : S32x512.Slices ![27, 0] S1x512
  slices_S32x512_o0_0_S28x512 : S32x512.Slices ![0, 0] S28x512
  slices_S32x512_o29_0_S3x512 : S32x512.Slices ![29, 0] S3x512
  concatenates_S28x512_S3x512_S31x512_d0 : Shape.Concatenates [S28x512, S3x512] S31x512 0
  slices_S32x512_o28_0_S1x512 : S32x512.Slices ![28, 0] S1x512
  slices_S32x512_o0_0_S29x512 : S32x512.Slices ![0, 0] S29x512
  slices_S32x512_o30_0_S2x512 : S32x512.Slices ![30, 0] S2x512
  concatenates_S29x512_S2x512_S31x512_d0 : Shape.Concatenates [S29x512, S2x512] S31x512 0
  slices_S32x512_o29_0_S1x512 : S32x512.Slices ![29, 0] S1x512
  slices_S32x512_o0_0_S30x512 : S32x512.Slices ![0, 0] S30x512
  slices_S32x512_o31_0_S1x512 : S32x512.Slices ![31, 0] S1x512
  concatenates_S30x512_S1x512_S31x512_d0 : Shape.Concatenates [S30x512, S1x512] S31x512 0
  slices_S32x512_o30_0_S1x512 : S32x512.Slices ![30, 0] S1x512
  slices_S32x512_o0_0_S31x512 : S32x512.Slices ![0, 0] S31x512
  concatenates_S31x512_S31x512_S31x512_S31x512_S31x512_S31x512_S31x512_S31x512_S31x512_S31x512_S31x512_S31x512_S31x512_S31x512_S31x512_S31x512_S31x512_S31x512_S31x512_S31x512_S31x512_S31x512_S31x512_S31x512_S31x512_S31x512_S31x512_S31x512_S31x512_S31x512_S31x512_S31x512_S992x512_d0 : Shape.Concatenates [S31x512, S31x512, S31x512, S31x512, S31x512, S31x512, S31x512, S31x512, S31x512, S31x512, S31x512, S31x512, S31x512, S31x512, S31x512, S31x512, S31x512, S31x512, S31x512, S31x512, S31x512, S31x512, S31x512, S31x512, S31x512, S31x512, S31x512, S31x512, S31x512, S31x512, S31x512, S31x512] S992x512 0
  broadcasts_S1x512_S992x512 : S1x512.Broadcasts S992x512
  inb_S1x992x512_S1x992x512_0_0_0 : ∀ a, (![0, 0, 0] : Fin 3 → Nat) a + S1x992x512.size a ≤ S1x992x512.size a
  h_S1x992x512 : 0 < S1x992x512.numel
  shapeCasts_S1x992x512_S992x512 : S1x992x512.ShapeCasts S992x512
  shapeCasts_S992x512_S1x992x512 : S992x512.ShapeCasts S1x992x512
  dot_S32x512_S512x512_S32x512_1_0_0_1_n_n_wf : DotDims.WF S32x512 S512x512 S32x512 [1] [0] [0] [1] [] []
  dot_S992x512_S512x512_S992x512_1_0_0_1_n_n_wf : DotDims.WF S992x512 S512x512 S992x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S64x32x512.size a
  hwx0_0 : ∀ i : grid0.Coords, EltTy.bits .f32 = 32 ∨ (Rect.block (s := S64x32x512) S1x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x992x512.size a ≤ S64x992x512.size a
  hwx0_6 : ∀ i : grid0.Coords, EltTy.bits .f32 = 32 ∨ (Rect.block (s := S64x992x512) S1x992x512.size (cc0_transform_6 i) (hinb0_6 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S992x512_S512x512_S992x512_1_0_0_1_n_n : DotDims S992x512 S512x512 S992x512 where
  lhsContracting := [1]
  rhsContracting := [0]
  lhsNonContracting := [0]
  rhsNonContracting := [1]
  lhsBatch := []
  rhsBatch := []
  wf := dot_S992x512_S512x512_S992x512_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x992x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x32x512 : Shape := ⟨3, ![64, 32, 512]⟩
abbrev S512x1024 : Shape := ⟨2, ![512, 1024]⟩
abbrev S512 : Shape := ⟨1, ![512]⟩
abbrev S512x512 : Shape := ⟨2, ![512, 512]⟩
abbrev S992 : Shape := ⟨1, ![992]⟩
abbrev S_ : Shape := ⟨0, ![]⟩
abbrev S992x1 : Shape := ⟨2, ![992, 1]⟩
abbrev S64x992x512 : Shape := ⟨3, ![64, 992, 512]⟩
abbrev S64x992x1024 : Shape := ⟨3, ![64, 992, 1024]⟩
abbrev S1x1x512 : Shape := ⟨3, ![1, 1, 512]⟩

abbrev nBuf : Space → Nat
  | .hbm => 37
  | .vmem => 0
  | .smem => 0
  | _ => 0

abbrev bufTy : (tb : Table) → Fin (tcTables nBuf tb) → BufTy
  | .hbm, ⟨0, _⟩ => ⟨S64x32x512, .f32⟩
  | .hbm, ⟨1, _⟩ => ⟨S512x1024, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S992, .i32⟩
  | .hbm, ⟨6, _⟩ => ⟨S992, .i32⟩
  | .hbm, ⟨7, _⟩ => ⟨S_, .i32⟩
  | .hbm, ⟨8, _⟩ => ⟨S992, .i32⟩
  | .hbm, ⟨9, _⟩ => ⟨S992, .i1⟩
  | .hbm, ⟨10, _⟩ => ⟨S_, .i32⟩
  | .hbm, ⟨11, _⟩ => ⟨S992, .i32⟩
  | .hbm, ⟨12, _⟩ => ⟨S992, .i32⟩
  | .hbm, ⟨13, _⟩ => ⟨S992, .i32⟩
  | .hbm, ⟨14, _⟩ => ⟨S992x1, .i32⟩
  | .hbm, ⟨15, _⟩ => ⟨S64x992x512, .f32⟩
  | .hbm, ⟨16, _⟩ => ⟨S_, .i32⟩
  | .hbm, ⟨17, _⟩ => ⟨S992, .i32⟩
  | .hbm, ⟨18, _⟩ => ⟨S992, .i1⟩
  | .hbm, ⟨19, _⟩ => ⟨S_, .i32⟩
  | .hbm, ⟨20, _⟩ => ⟨S992, .i32⟩
  | .hbm, ⟨21, _⟩ => ⟨S992, .i32⟩
  | .hbm, ⟨22, _⟩ => ⟨S992, .i32⟩
  | .hbm, ⟨23, _⟩ => ⟨S992x1, .i32⟩
  | .hbm, ⟨24, _⟩ => ⟨S64x992x512, .f32⟩
  | .hbm, ⟨25, _⟩ => ⟨S64x992x1024, .f32⟩
  | .hbm, ⟨26, _⟩ => ⟨S64x992x512, .f32⟩
  | .hbm, ⟨27, _⟩ => ⟨S1x1x512, .f32⟩
  | .hbm, ⟨28, _⟩ => ⟨S64x992x512, .f32⟩
  | .hbm, ⟨29, _⟩ => ⟨S64x992x512, .f32⟩
  | .hbm, ⟨30, _⟩ => ⟨S_, .f32⟩
  | .hbm, ⟨31, _⟩ => ⟨S64x992x512, .f32⟩
  | .hbm, ⟨32, _⟩ => ⟨S64x992x512, .f32⟩
  | .hbm, ⟨33, _⟩ => ⟨S64x992x512, .f32⟩
  | .hbm, ⟨34, _⟩ => ⟨S1x1x512, .f32⟩
  | .hbm, ⟨35, _⟩ => ⟨S64x992x512, .f32⟩
  | .hbm, ⟨36, _⟩ => ⟨S64x992x512, .f32⟩
  | _, _ => ⟨S64x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_c_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_3 : Ref sig .tc := ⟨.hbm, 16, rfl⟩
abbrev main_v7 : Ref sig .tc := ⟨.hbm, 17, rfl⟩
abbrev main_v8 : Ref sig .tc := ⟨.hbm, 18, rfl⟩
abbrev main_c_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S992 : S_.BroadcastsInDim S992 (![] : Fin 0 → Fin S992.rank)
  bcast_S992_S992x1_0 : S992.BroadcastsInDim S992x1 (![0] : Fin 1 → Fin S992x1.rank)
  concatenates_S64x992x512_S64x992x512_S64x992x1024_d2 : Shape.Concatenates [S64x992x512, S64x992x512] S64x992x1024 2
  bcast_S512_S1x1x512_2 : S512.BroadcastsInDim S1x1x512 (![2] : Fin 1 → Fin S1x1x512.rank)
  bcast_S1x1x512_S64x992x512_0_1_2 : S1x1x512.BroadcastsInDim S64x992x512 (![0, 1, 2] : Fin 3 → Fin S64x992x512.rank)
  bcast_S_S64x992x512 : S_.BroadcastsInDim S64x992x512 (![] : Fin 0 → Fin S64x992x512.rank)
  gather_S64x32x512_S992x1_S64x992x512_02_1_n_n_1_1_641512_wf : GatherDims.WF S64x32x512 S992x1 S64x992x512 [0, 2] [1] [] [1] [] 1 ![64, 1, 512]
  dot_S64x992x1024_S512x1024_S64x992x512_2_1_01_0_n_n_wf : DotDims.WF S64x992x1024 S512x1024 S64x992x512 [2] [1] [0, 1] [0] [] []
  dot_S64x992x512_S512x512_S64x992x512_2_1_01_0_n_n_wf : DotDims.WF S64x992x512 S512x512 S64x992x512 [2] [1] [0, 1] [0] [] []

variable [Facts₀]

def gather_S64x32x512_S992x1_S64x992x512_02_1_n_n_1_1_641512 : GatherDims S64x32x512 S992x1 S64x992x512 where
  offsetDims := [0, 2]
  collapsedSliceDims := [1]
  operandBatchingDims := []
  startIndicesBatchingDims := []
  startIndexMap := [1]
  indexVectorDim := 1
  sliceSizes := ![64, 1, 512]
  wf := gather_S64x32x512_S992x1_S64x992x512_02_1_n_n_1_1_641512_wf
def dot_S64x992x1024_S512x1024_S64x992x512_2_1_01_0_n_n : DotDims S64x992x1024 S512x1024 S64x992x512 where
  lhsContracting := [2]
  rhsContracting := [1]
  lhsNonContracting := [0, 1]
  rhsNonContracting := [0]
  lhsBatch := []
  rhsBatch := []
  wf := dot_S64x992x1024_S512x1024_S64x992x512_2_1_01_0_n_n_wf
def dot_S64x992x512_S512x512_S64x992x512_2_1_01_0_n_n : DotDims S64x992x512 S512x512 S64x992x512 where
  lhsContracting := [2]
  rhsContracting := [1]
  lhsNonContracting := [0, 1]
  rhsNonContracting := [0]
  lhsBatch := []
  rhsBatch := []
  wf := dot_S64x992x512_S512x512_S64x992x512_2_1_01_0_n_n_wf

class Facts : Prop extends Facts₀ where

variable [Facts]
-- ==== Proof.Spec.lean ====
/-
  The mathematics both programs compute, stated once over the extended reals and over literal index types.

  For a batch item `b` the 32 feature rows `x[b, i, :]` are paired off-diagonal: pair `p < 992` has first member
  `i = p / 31` and second member `j`, the `(p % 31)`-th row other than `i`.  The hidden layer of a pair is
  `relu(W1 · (x[b,i] ++ x[b,j]) + b1)`, which splits over the two halves of `W1`'s columns into
  `(Σ_q x[b,j,q]·W1[k,512+q]) + (Σ_q x[b,i,q]·W1[k,q]) + b1[k]`; the output is `W2 · hidden + b2`.
-/
import Idealize.ShloMosaic.PureOps.Ideal
import Idealize.ShloMosaic.Lib.ValueIdx
import Mathlib.Algebra.BigOperators.Fin

noncomputable section

namespace Cert.PairMlp

open Idealize.ShloMosaic Idealize.ShloMosaic.ValueIdx

abbrev SX : Shape := ⟨3, ![64, 32, 512]⟩
abbrev SW1 : Shape := ⟨2, ![512, 1024]⟩
abbrev SV : Shape := ⟨1, ![512]⟩
abbrev SW2 : Shape := ⟨2, ![512, 512]⟩
abbrev SOut : Shape := ⟨3, ![64, 992, 512]⟩

/-- The first member of pair `p`: `p / 31`. -/
def pairI (p : Fin 992) : Fin 32 := ⟨p.val / 31, by have := p.isLt; omega⟩

/-- The second member of pair `p`: the `(p % 31)`-th row other than `p / 31`. -/
def pairJ (p : Fin 992) : Fin 32 :=
  ⟨if p.val % 31 < p.val / 31 then p.val % 31 else p.val % 31 + 1, by have := p.isLt; split <;> omega⟩

theorem pairI_val (p : Fin 992) : (pairI p).val = p.val / 31 := rfl
theorem pairJ_val (p : Fin 992) :
    (pairJ p).val = if p.val % 31 < p.val / 31 then p.val % 31 else p.val % 31 + 1 := rfl

/-- Column `q` of the left half of `W1`'s columns. -/
abbrev colL (q : Fin 512) : Fin 1024 := ⟨q.val, by have := q.isLt; omega⟩
/-- Column `q` of the right half of `W1`'s columns. -/
abbrev colR (q : Fin 512) : Fin 1024 := ⟨512 + q.val, by have := q.isLt; omega⟩

/-- The first linear layer on one member of a pair through the LEFT half of `W1`: `Σ_q x[b,i,q]·W1[k,q]`. -/
def projL (x : SX.Idx → EReal) (W1 : SW1.Idx → EReal) (b : Fin 64) (i : Fin 32) (k : Fin 512) : EReal :=
  ∑ q : Fin 512, x (ix3 b i q) * W1 (ix2 k (colL q))

/-- The first linear layer on one member of a pair through the RIGHT half of `W1`: `Σ_q x[b,j,q]·W1[k,512+q]`. -/
def projR (x : SX.Idx → EReal) (W1 : SW1.Idx → EReal) (b : Fin 64) (j : Fin 32) (k : Fin 512) : EReal :=
  ∑ q : Fin 512, x (ix3 b j q) * W1 (ix2 k (colR q))

/-- The hidden unit `k` of pair `p` of batch item `b`: `relu(projR(j) + projL(i) + b1[k])`. -/
def hidden (x : SX.Idx → EReal) (W1 : SW1.Idx → EReal) (b1 : SV.Idx → EReal) (b : Fin 64) (p : Fin 992) (k : Fin 512) : EReal :=
  max (projR x W1 b (pairJ p) k + projL x W1 b (pairI p) k + b1 (ix1 k)) 0

/-- The result array: `out[b, p, d] = Σ_k hidden[b,p,k]·W2[d,k] + b2[d]`. -/
def G (x : SX.Idx → EReal) (W1 : SW1.Idx → EReal) (b1 : SV.Idx → EReal) (W2 : SW2.Idx → EReal) (b2 : SV.Idx → EReal) :
    SOut.Idx → EReal := fun i =>
  (∑ k : Fin 512, hidden x W1 b1 (i 0) (i 1) k * W2 (ix2 (i 2) k)) + b2 (ix1 (i 2))

/-- A sum over the 1024 joined columns is the sum over the left half plus the sum over the right half. -/
theorem sum_halves (f : Fin 1024 → EReal) :
    ∑ q : Fin 1024, f q = (∑ q : Fin 512, f (colL q)) + ∑ q : Fin 512, f (colR q) := by
  have h := Fin.sum_univ_add (M := EReal) (a := 512) (b := 512) (fun q : Fin (512 + 512) => f ⟨q.val, q.isLt⟩)
  exact h

end Cert.PairMlp

end
-- ==== Proof.KernelHidden.lean ====
/-
  The kernel body's hidden rows. The body computes the two projections of the 32 feature rows once, then for each first
  member `i` lays the 31 rows of the other members' right projections (rows before `i`, then rows after `i`) one under
  another, adds row `i` of the left projection and the bias to each, and takes the maximum with zero; the 32 groups of
  31 rows are laid one under another. Read at row `p` and column `k` that is
  `max (right[j, k] + left[i, k] + b1[k]) 0` for the pair `(i, j)` numbered `p`.
-/
import proofs.«141854_j36833639531229_1_alg».proof.Proof.Gen.KernelIdeal.Skeleton
import proofs.«141854_j36833639531229_1_alg».proof.Proof.Spec
import Idealize.ShloMosaic.Lib.Pipeline.Value
import Idealize.ShloMosaic.Lib.ValueLayout
import Idealize.ShloMosaic.PureOps.Ideal.Laws

noncomputable section

namespace Cert.KernelIdeal.Hidden

open Cert.KernelIdeal Cert.KernelIdeal.Gen Idealize.ShloMosaic Idealize.ShloMosaic.ValueIdx Cert.PairMlp

variable {F : FTy → Type} [FloatOps F]

/-- The 992 hidden rows as the body builds them from its loaded blocks (features, the two halves of `W1`, `b1`). -/
def hcat (x0 : Vec F S1x32x512 .f32) (x1 : Vec F S512x512 .f32) (x2 : Vec F S512x512 .f32) (x4 : Vec F S1x512 .f32) :
    FVec F S992x512 .f32 :=
  k0_pay3 (k0_pay11 x0 x1 x2 x4) (k0_pay12 x0 x1 x2 x4) (k0_pay15 (k0_pay7 x4) (k0_pay13 x0 x2) (k0_pay14 x0 x1)) (k0_pay16 (k0_pay7 x4) (k0_pay9 x0 x1) (k0_pay10 x0 x2)) (k0_pay17 (k0_pay7 x4) (k0_pay9 x0 x1) (k0_pay10 x0 x2)) (k0_pay18 (k0_pay7 x4) (k0_pay9 x0 x1) (k0_pay10 x0 x2)) (k0_pay19 (k0_pay7 x4) (k0_pay9 x0 x1) (k0_pay10 x0 x2)) (k0_pay22 (k0_pay20 (k0_pay7 x4) (k0_pay9 x0 x1) (k0_pay10 x0 x2)) (k0_pay21 (F := F))) (k0_pay23 (k0_pay7 x4) (k0_pay9 x0 x1) (k0_pay10 x0 x2)) (k0_pay24 (k0_pay7 x4) (k0_pay9 x0 x1) (k0_pay10 x0 x2)) (k0_pay25 (k0_pay7 x4) (k0_pay9 x0 x1) (k0_pay10 x0 x2)) (k0_pay26 (k0_pay7 x4) (k0_pay9 x0 x1) (k0_pay10 x0 x2)) (k0_pay27 (k0_pay7 x4) (k0_pay9 x0 x1) (k0_pay10 x0 x2)) (k0_pay30 (k0_pay7 x4) (k0_pay28 (k0_pay10 x0 x2)) (k0_pay29 (k0_pay9 x0 x1))) (k0_pay31 (k0_pay7 x4) (k0_pay9 x0 x1) (k0_pay10 x0 x2)) (k0_pay32 (k0_pay7 x4) (k0_pay9 x0 x1) (k0_pay10 x0 x2)) (k0_pay33 (k0_pay7 x4) (k0_pay9 x0 x1) (k0_pay10 x0 x2)) (k0_pay34 (k0_pay7 x4) (k0_pay9 x0 x1) (k0_pay10 x0 x2)) (k0_pay36 (k0_pay35 (k0_pay7 x4) (k0_pay9 x0 x1) (k0_pay10 x0 x2)) (Scalar.ofBits .f32 0x00000000#32)) (k0_pay37 (k0_pay7 x4) (k0_pay9 x0 x1) (k0_pay10 x0 x2)) (k0_pay38 (k0_pay7 x4) (k0_pay9 x0 x1) (k0_pay10 x0 x2)) (k0_pay39 (k0_pay7 x4) (k0_pay9 x0 x1) (k0_pay10 x0 x2)) (k0_pay40 (k0_pay7 x4) (k0_pay9 x0 x1) (k0_pay10 x0 x2)) (k0_pay41 (k0_pay7 x4) (k0_pay9 x0 x1) (k0_pay10 x0 x2)) (k0_pay43 (k0_pay7 x4) (k0_pay9 x0 x1) (k0_pay42 (k0_pay10 x0 x2))) (k0_pay44 (k0_pay7 x4) (k0_pay9 x0 x1) (k0_pay10 x0 x2)) (k0_pay45 (k0_pay7 x4) (k0_pay9 x0 x1) (k0_pay10 x0 x2)) (k0_pay46 (k0_pay7 x4) (k0_pay9 x0 x1) (k0_pay10 x0 x2)) (k0_pay47 (k0_pay7 x4) (k0_pay9 x0 x1) (k0_pay10 x0 x2)) (k0_pay48 (k0_pay7 x4) (k0_pay9 x0 x1) (k0_pay10 x0 x2)) (k0_pay1 (k0_pay7 x4) (k0_pay9 x0 x1) (k0_pay10 x0 x2)) (k0_pay2 (k0_pay7 x4) (k0_pay9 x0 x1) (k0_pay10 x0 x2))

/-! ## One group of 31 rows, and the 32 groups laid one under another -/

/-- The `r`-th of the 32 rows other than row `i`: a row before `i` keeps its number, a row from `i` on is one further down. -/
private def other (i : Fin 32) (r : Fin 31) : Fin 32 :=
  ⟨if r.val < i.val then r.val else r.val + 1, by have := r.isLt; have := i.isLt; split <;> omega⟩

/-- What group `i` of the hidden rows holds: at row `r` and column `k`, the right projection's `r`-th row other than
    `i`, plus the left projection's row `i`, plus the bias, cut at zero. -/
private def BlockReads (ga gb : FVec Ideal S32x512 .f32) (bb : FVec Ideal S1x512 .f32) (i : Fin 32)
    (B : FVec Ideal S31x512 .f32) : Prop :=
  ∀ (r : Fin 31) (k : Fin 512), B (ix2 r k) = max (gb (ix2 (other i r) k) + ga (ix2 i k) + bb (ix2 (0 : Fin 1) k)) 0

/-- Row `i` of the left projection and the bias added to every one of 31 rows, then the maximum with zero, read at an
    index. -/
private theorem tail_apply (ga : FVec Ideal S32x512 .f32) (bb : FVec Ideal S1x512 .f32) (rows : FVec Ideal S31x512 .f32)
    (i : Nat) (i' : Fin 32) (hi : i'.val = i) (hS : S32x512.Slices ![i, 0] S1x512) (hB : S1x512.Broadcasts S31x512)
    (r : Fin 31) (k : Fin 512) :
    maximumf (addf (addf rows (broadcastTo S31x512 (extractStridedSlice S1x512 ![i, 0] ga hS) hB)) (broadcastTo S31x512 bb hB))
        (broadcast S31x512 (Scalar.ofBits .f32 0x00000000#32)) (ix2 r k)
      = max (rows (ix2 r k) + ga (ix2 i' k) + bb (ix2 (0 : Fin 1) k)) 0 := by
  rw [maximumf_apply, addf_apply, addf_apply, broadcast_apply, broadcastTo_1b_ab_apply, broadcastTo_1b_ab_apply,
    slice2_axis0_apply i ga hS (0 : Fin 1) k i' (by simp [hi])]
  exact congrArg _ Ideal.ofBits_zero_f32

/-- Rows `0 … a-1` and rows `a+1 … 31` of the right projection laid one under another, read at row `r`: row `r` if
    `r < a`, else row `r + 1`. -/
private theorem rows_mid_apply (gb : FVec Ideal S32x512 .f32) (a b o : Nat) (hab : a + b = 31) (ho : o = a + 1)
    (hA : S32x512.Slices ![0, 0] ⟨2, ![a, 512]⟩) (hB : S32x512.Slices ![o, 0] ⟨2, ![b, 512]⟩)
    (hC : Shape.Concatenates [⟨2, ![a, 512]⟩, ⟨2, ![b, 512]⟩] S31x512 0)
    (r : Fin 31) (k : Fin 512) (j : Fin 32) (hj : j.val = if r.val < a then r.val else r.val + 1) :
    concatenate S31x512 0 [⟨⟨2, ![a, 512]⟩, extractStridedSlice ⟨2, ![a, 512]⟩ ![0, 0] gb hA⟩,
        ⟨⟨2, ![b, 512]⟩, extractStridedSlice ⟨2, ![b, 512]⟩ ![o, 0] gb hB⟩] hC (ix2 r k) = gb (ix2 j k) := by
  by_cases hr : r.val < a
  · rw [if_pos hr] at hj
    refine (concatenate_pair_apply_left 0 _ _ hC (ix2 r k) rfl (ix2 ⟨r.val, hr⟩ k) (fun c => ?_)).trans ?_
    · match c with
      | ⟨0, _⟩ => rfl
      | ⟨1, _⟩ => rfl
    · exact slice2_axis0_apply 0 gb hA ⟨r.val, hr⟩ k j (by simp [hj])
  · rw [if_neg hr] at hj
    have hr' : r.val - a < b := by have := r.isLt; omega
    refine (concatenate_pair_apply_right 0 _ _ hC (ix2 r k) rfl rfl (ix2 ⟨r.val - a, hr'⟩ k) (fun c hc => ?_) ?_).trans ?_
    · match c with
      | ⟨0, _⟩ => exact absurd rfl hc
      | ⟨1, _⟩ => rfl
    · show r.val - a + a = r.val
      omega
    · exact slice2_axis0_apply o gb hB ⟨r.val - a, hr'⟩ k j (by simp only [hj, ho]; omega)

/-- Group `0`: rows `1 … 31` of the right projection. -/
private theorem reads_first (ga gb : FVec Ideal S32x512 .f32) (bb : FVec Ideal S1x512 .f32)
    (hR : S32x512.Slices ![1, 0] S31x512 := by decide) (hS : S32x512.Slices ![0, 0] S1x512 := by decide)
    (hB : S1x512.Broadcasts S31x512 := by decide) :
    BlockReads ga gb bb 0
      (maximumf (addf (addf (extractStridedSlice S31x512 ![1, 0] gb hR)
          (broadcastTo S31x512 (extractStridedSlice S1x512 ![0, 0] ga hS) hB)) (broadcastTo S31x512 bb hB))
        (broadcast S31x512 (Scalar.ofBits .f32 0x00000000#32))) := by
  intro r k
  refine (tail_apply ga bb _ 0 0 rfl hS hB r k).trans ?_
  rw [slice2_axis0_apply 1 gb hR r k (other 0 r)
    (by show (if r.val < 0 then r.val else r.val + 1) = 1 + r.val; split <;> omega)]

/-- Group `31`: rows `0 … 30` of the right projection. -/
private theorem reads_last (ga gb : FVec Ideal S32x512 .f32) (bb : FVec Ideal S1x512 .f32)
    (hR : S32x512.Slices ![0, 0] S31x512 := by decide) (hS : S32x512.Slices ![31, 0] S1x512 := by decide)
    (hB : S1x512.Broadcasts S31x512 := by decide) :
    BlockReads ga gb bb 31
      (maximumf (addf (addf (extractStridedSlice S31x512 ![0, 0] gb hR)
          (broadcastTo S31x512 (extractStridedSlice S1x512 ![31, 0] ga hS) hB)) (broadcastTo S31x512 bb hB))
        (broadcast S31x512 (Scalar.ofBits .f32 0x00000000#32))) := by
  intro r k
  refine (tail_apply ga bb _ 31 31 rfl hS hB r k).trans ?_
  rw [slice2_axis0_apply 0 gb hR r k (other 31 r)
    (by show (if r.val < 31 then r.val else r.val + 1) = 0 + r.val; have := r.isLt; split <;> omega)]

/-- Group `i` for `0 < i < 31`: rows `0 … i-1` of the right projection, then rows `i+1 … 31`. -/
private theorem reads_mid (ga gb : FVec Ideal S32x512 .f32) (bb : FVec Ideal S1x512 .f32) {a b o i : Nat} {i' : Fin 32}
    (hab : a + b = 31 := by rfl) (ho : o = a + 1 := by rfl) (hia : i = a := by rfl) (hi : i'.val = i := by rfl)
    (hA : S32x512.Slices ![0, 0] ⟨2, ![a, 512]⟩ := by decide) (hB : S32x512.Slices ![o, 0] ⟨2, ![b, 512]⟩ := by decide)
    (hC : Shape.Concatenates [⟨2, ![a, 512]⟩, ⟨2, ![b, 512]⟩] S31x512 0 := by decide)
    (hS : S32x512.Slices ![i, 0] S1x512 := by decide) (hBr : S1x512.Broadcasts S31x512 := by decide) :
    BlockReads ga gb bb i'
      (maximumf (addf (addf (concatenate S31x512 0 [⟨⟨2, ![a, 512]⟩, extractStridedSlice ⟨2, ![a, 512]⟩ ![0, 0] gb hA⟩,
            ⟨⟨2, ![b, 512]⟩, extractStridedSlice ⟨2, ![b, 512]⟩ ![o, 0] gb hB⟩] hC)
          (broadcastTo S31x512 (extractStridedSlice S1x512 ![i, 0] ga hS) hBr)) (broadcastTo S31x512 bb hBr))
        (broadcast S31x512 (Scalar.ofBits .f32 0x00000000#32))) := by
  intro r k
  refine (tail_apply ga bb _ i i' hi hS hBr r k).trans ?_
  rw [rows_mid_apply gb a b o hab ho hA hB hC r k (other i' r) (by simp only [other, hi, hia])]

/-- The 32 groups of 31 rows laid one under another: row `p` is row `p % 31` of group `p / 31`, which is the pair
    numbered `p`. -/
private theorem cat32 (ga gb : FVec Ideal S32x512 .f32) (bb : FVec Ideal S1x512 .f32)
    (v0 v1 v2 v3 v4 v5 v6 v7 v8 v9 v10 v11 v12 v13 v14 v15 v16 v17 v18 v19 v20 v21 v22 v23 v24 v25 v26 v27 v28 v29 v30
      v31 : FVec Ideal S31x512 .f32)
    (hC : Shape.Concatenates (List.replicate 32 S31x512) S992x512 0)
    (h0 : BlockReads ga gb bb 0 v0) (h1 : BlockReads ga gb bb 1 v1) (h2 : BlockReads ga gb bb 2 v2)
    (h3 : BlockReads ga gb bb 3 v3) (h4 : BlockReads ga gb bb 4 v4) (h5 : BlockReads ga gb bb 5 v5)
    (h6 : BlockReads ga gb bb 6 v6) (h7 : BlockReads ga gb bb 7 v7) (h8 : BlockReads ga gb bb 8 v8)
    (h9 : BlockReads ga gb bb 9 v9) (h10 : BlockReads ga gb bb 10 v10) (h11 : BlockReads ga gb bb 11 v11)
    (h12 : BlockReads ga gb bb 12 v12) (h13 : BlockReads ga gb bb 13 v13) (h14 : BlockReads ga gb bb 14 v14)
    (h15 : BlockReads ga gb bb 15 v15) (h16 : BlockReads ga gb bb 16 v16) (h17 : BlockReads ga gb bb 17 v17)
    (h18 : BlockReads ga gb bb 18 v18) (h19 : BlockReads ga gb bb 19 v19) (h20 : BlockReads ga gb bb 20 v20)
    (h21 : BlockReads ga gb bb 21 v21) (h22 : BlockReads ga gb bb 22 v22) (h23 : BlockReads ga gb bb 23 v23)
    (h24 : BlockReads ga gb bb 24 v24) (h25 : BlockReads ga gb bb 25 v25) (h26 : BlockReads ga gb bb 26 v26)
    (h27 : BlockReads ga gb bb 27 v27) (h28 : BlockReads ga gb bb 28 v28) (h29 : BlockReads ga gb bb 29 v29)
    (h30 : BlockReads ga gb bb 30 v30) (h31 : BlockReads ga gb bb 31 v31) (p : Fin 992) (k : Fin 512) :
    concatenate S992x512 0 [⟨S31x512, v0⟩, ⟨S31x512, v1⟩, ⟨S31x512, v2⟩, ⟨S31x512, v3⟩, ⟨S31x512, v4⟩, ⟨S31x512, v5⟩,
        ⟨S31x512, v6⟩, ⟨S31x512, v7⟩, ⟨S31x512, v8⟩, ⟨S31x512, v9⟩, ⟨S31x512, v10⟩, ⟨S31x512, v11⟩, ⟨S31x512, v12⟩,
        ⟨S31x512, v13⟩, ⟨S31x512, v14⟩, ⟨S31x512, v15⟩, ⟨S31x512, v16⟩, ⟨S31x512, v17⟩, ⟨S31x512, v18⟩, ⟨S31x512, v19⟩,
        ⟨S31x512, v20⟩, ⟨S31x512, v21⟩, ⟨S31x512, v22⟩, ⟨S31x512, v23⟩, ⟨S31x512, v24⟩, ⟨S31x512, v25⟩, ⟨S31x512, v26⟩,
        ⟨S31x512, v27⟩, ⟨S31x512, v28⟩, ⟨S31x512, v29⟩, ⟨S31x512, v30⟩, ⟨S31x512, v31⟩] hC (ix2 p k)
      = max (gb (ix2 (pairJ p) k) + ga (ix2 (pairI p) k) + bb (ix2 (0 : Fin 1) k)) 0 := by
  have hr : p.val % 31 < 31 := Nat.mod_lt _ (by norm_num)
  refine (concatenate_ofFn_apply (t := S992x512) (s₁ := S31x512) 0
    ![v0, v1, v2, v3, v4, v5, v6, v7, v8, v9, v10, v11, v12, v13, v14, v15, v16, v17, v18, v19, v20, v21, v22, v23, v24,
      v25, v26, v27, v28, v29, v30, v31] hC rfl 31 rfl (ix2 p k) (pairI p) rfl (ix2 ⟨p.val % 31, hr⟩ k) rfl (fun c hc => ?_)).trans ?_
  · match c with
    | ⟨0, _⟩ => exact absurd rfl hc
    | ⟨1, _⟩ => rfl
  · have hJ : pairJ p = other (pairI p) ⟨p.val % 31, hr⟩ := rfl
    rw [hJ]
    generalize pairI p = i
    generalize (⟨p.val % 31, hr⟩ : Fin 31) = r
    fin_cases i
    exacts [h0 r k, h1 r k, h2 r k, h3 r k, h4 r k, h5 r k, h6 r k, h7 r k, h8 r k, h9 r k, h10 r k, h11 r k, h12 r k,
      h13 r k, h14 r k, h15 r k, h16 r k, h17 r k, h18 r k, h19 r k, h20 r k, h21 r k, h22 r k, h23 r k, h24 r k, h25 r k,
      h26 r k, h27 r k, h28 r k, h29 r k, h30 r k, h31 r k]

/-! ## The hidden rows read at an index -/

/-- Row `p`, column `k` of the hidden rows: the right projection's row of the pair's second member plus the left
    projection's row of its first member plus the bias, cut at zero. -/
theorem hcat_apply (x0 : Vec Ideal S1x32x512 .f32) (x1 : Vec Ideal S512x512 .f32) (x2 : Vec Ideal S512x512 .f32)
    (x4 : Vec Ideal S1x512 .f32) (p : Fin 992) (k : Fin 512) :
    hcat x0 x1 x2 x4 (ix2 p k)
      = max (k0_pay10 x0 x2 (ix2 (pairJ p) k) + k0_pay9 x0 x1 (ix2 (pairI p) k) + x4 (ix2 (0 : Fin 1) k)) 0 := by
  -- the bias block is cast to its own shape: the same block
  have h7 : k0_pay7 x4 = x4 := shapeCast_self _ _
  have main : hcat x0 x1 x2 x4 (ix2 p k)
      = max (k0_pay10 x0 x2 (ix2 (pairJ p) k) + k0_pay9 x0 x1 (ix2 (pairI p) k) + k0_pay7 x4 (ix2 (0 : Fin 1) k)) 0 := by
    unfold hcat
    apply cat32 (k0_pay9 x0 x1) (k0_pay10 x0 x2) (k0_pay7 x4)
    -- the 32 groups have 31 rows each
    · decide
    -- group 0, groups 1 to 30, group 31
    · exact reads_first _ _ _
    iterate 30 exact reads_mid _ _ _
    exact reads_last _ _ _
  rw [main, h7]

end Cert.KernelIdeal.Hidden

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.KernelBlock.lean ====
/-
  One grid point's output block as a function of its input blocks, index by index, at the ideal instance.

  With `x0` the point's 32 feature rows, `x1` / `x2` the left / right halves of `W1`, `x3 = W2`, `x4 = b1` and
  `x5 = b2` as rows, the body's two projections are `left[i, k] = Σ_q x0[i, q]·x1[k, q]` and
  `right[j, k] = Σ_q x0[j, q]·x2[k, q]` (a change of float format is the identity here, and the transposed weight read
  at `(q, k)` is the weight at `(k, q)`); the hidden row of pair `p` is `max (right[j] + left[i] + b1) 0`; the block
  stored is `out[p, d] = Σ_k hidden[p, k]·x3[d, k] + x5[d]`.
-/
import proofs.«141854_j36833639531229_1_alg».proof.Proof.Gen.KernelIdeal.Frame
import proofs.«141854_j36833639531229_1_alg».proof.Proof.KernelHidden
import proofs.«141854_j36833639531229_1_alg».proof.Proof.LibContract
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.PairMlp
open Cert.KernelIdeal.Hidden Cert.LibDense

/-- The left projection at `(i, k)`: `Σ_q x0[i, q]·x1[k, q]`. -/
theorem left_read (x0 : Vec Ideal S1x32x512 .f32) (x1 : Vec Ideal S512x512 .f32) (i : Fin 32) (k : Fin 512) :
    k0_pay9 x0 x1 (ix2 i k) = ∑ q : Fin 512, x0 (ix3 (0 : Fin 1) i q) * x1 (ix2 k q) := by
  unfold k0_pay9 k0_pay5
  refine (matmul_plain_zero_apply 32 512 512 none _ _ i k).trans ?_
  refine Finset.sum_congr rfl fun q _ => ?_
  rw [transpose_ix2_apply]
  simp only [truncf_apply, shapeCast_1ab_ab_apply, shapeCast_self]

/-- The right projection at `(j, k)`: `Σ_q x0[j, q]·x2[k, q]`. -/
theorem right_read (x0 : Vec Ideal S1x32x512 .f32) (x2 : Vec Ideal S512x512 .f32) (j : Fin 32) (k : Fin 512) :
    k0_pay10 x0 x2 (ix2 j k) = ∑ q : Fin 512, x0 (ix3 (0 : Fin 1) j q) * x2 (ix2 k q) := by
  unfold k0_pay10 k0_pay5
  refine (matmul_plain_zero_apply 32 512 512 none _ _ j k).trans ?_
  refine Finset.sum_congr rfl fun q _ => ?_
  rw [transpose_ix2_apply]
  simp only [truncf_apply, shapeCast_1ab_ab_apply, shapeCast_self]

/-- The second layer on the hidden rows `h`, at `(u, p, d)`: `Σ_k h[p, k]·x3[d, k] + x5[0, d]`. -/
theorem second_read (x3 : Vec Ideal S512x512 .f32) (x5 : Vec Ideal S1x512 .f32) (h : FVec Ideal S992x512 .f32)
    (u : Fin 1) (p : Fin 992) (d : Fin 512) :
    k0_pay4 (k0_pay6 x3) (k0_pay8 x5) h (ix3 u p d) = (∑ k : Fin 512, h (ix2 p k) * x3 (ix2 d k)) + x5 (ix2 (0 : Fin 1) d) := by
  unfold k0_pay4 k0_pay6 k0_pay8
  rw [shapeCast_ab_1ab_apply, addf_apply, broadcastTo_1b_ab_apply, shapeCast_self]
  refine congrArg (· + x5 (ix2 (0 : Fin 1) d)) ?_
  refine (matmul_plain_zero_apply 992 512 512 none _ _ p d).trans ?_
  refine Finset.sum_congr rfl fun k _ => ?_
  rw [transpose_ix2_apply]
  simp only [truncf_apply]

/-- One point's block of the result from its input blocks, index by index. -/
def blockFn (x0 : Vec Ideal S1x32x512 .f32) (x1 x2 x3 : Vec Ideal S512x512 .f32) (x4 x5 : Vec Ideal S1x512 .f32) :
    S1x992x512.Idx → EReal := fun j =>
  (∑ k : Fin 512,
      max ((∑ q : Fin 512, x0 (ix3 (0 : Fin 1) (pairJ (j 1)) q) * x2 (ix2 k q))
          + (∑ q : Fin 512, x0 (ix3 (0 : Fin 1) (pairI (j 1)) q) * x1 (ix2 k q)) + x4 (ix2 (0 : Fin 1) k)) 0
        * x3 (ix2 (j 2) k))
    + x5 (ix2 (0 : Fin 1) (j 2))

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's buffer is the second layer on the hidden rows of the loaded blocks. -/
theorem out_eq (x0 : Vec Ideal S1x32x512 .f32) (x1 x2 x3 : Vec Ideal S512x512 .f32) (x4 x5 : Vec Ideal S1x512 .f32) :
    out0_6 x0 x1 x2 x3 x4 x5 = k0_pay4 (k0_pay6 x3) (k0_pay8 x5) (hcat x0 x1 x2 x4) := by
  unfold out0_6
  rw [View.canon_unit_zero hz3]
  simp only [View.ld_unit_zero (S := S1x32x512) hz3, View.ld_unit_zero (S := S512x512) hz2,
    View.ld_unit_zero (S := S1x512) hz2]
  rfl

/-- The body's result block is `blockFn` of the input blocks. -/
theorem out_read (x0 : Vec Ideal S1x32x512 .f32) (x1 x2 x3 : Vec Ideal S512x512 .f32) (x4 x5 : Vec Ideal S1x512 .f32) :
    out0_6 x0 x1 x2 x3 x4 x5 = blockFn x0 x1 x2 x3 x4 x5 := by
  rw [out_eq]
  funext j
  obtain ⟨u, p, d, rfl⟩ : ∃ (u : Fin 1) (p : Fin 992) (d : Fin 512), j = ix3 u p d := ⟨j 0, j 1, j 2, eq_ix3 j⟩
  rw [second_read]
  show _ = (∑ k : Fin 512,
      max ((∑ q : Fin 512, x0 (ix3 (0 : Fin 1) (pairJ p) q) * x2 (ix2 k q))
          + (∑ q : Fin 512, x0 (ix3 (0 : Fin 1) (pairI p) q) * x1 (ix2 k q)) + x4 (ix2 (0 : Fin 1) k)) 0
        * x3 (ix2 d k))
    + x5 (ix2 (0 : Fin 1) d)
  refine congrArg (· + x5 (ix2 (0 : Fin 1) d)) (Finset.sum_congr rfl fun k _ => ?_)
  rw [hcat_apply, left_read, right_read]

end Cert.KernelIdeal.Block

end
-- ==== Proof.KernelValue.lean ====
/-
  The idealized kernel's result array after its run, as ONE function of the argument arrays: `Cert.PairMlp.G`.

  Before the region the host cuts `W1` into its left and right halves of columns and lays `b1`, `b2` as rows. Grid point
  `t` stages batch item `t`'s 32 feature rows, the two halves, `W2` and the two rows whole, and writes back rows
  `[t, :, :]` of the result; the body's block is `Block.blockFn` of those blocks, which is block `t` of `G`; the 64
  blocks cover the result, so the array after the run is `G` of the arguments.
-/
import proofs.«141854_j36833639531229_1_alg».proof.Proof.Gen.KernelIdeal.Value
import proofs.«141854_j36833639531229_1_alg».proof.Proof.KernelBlock
import Idealize.ShloMosaic.Lib.StableHlo.Run

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.PairMlp Cert.KernelIdeal.Block
open Idealize.ShloMosaic.Pipeline (Dat)

variable (m : (ℓ : Loc nD τ sig) → Buf (Elt Ideal) ℓ) (ρ : Dev nD → PrngReg)

/-! ## The arrays the region finds -/

/-- The features, as launched. -/
abbrev xArr (c : Dev nD) : S64x32x512.Idx → EReal := m ((c : Thread nD τ).loc main_arg0)
abbrev w1Arr (c : Dev nD) : S512x1024.Idx → EReal := m ((c : Thread nD τ).loc main_arg1)
abbrev b1Arr (c : Dev nD) : S512.Idx → EReal := m ((c : Thread nD τ).loc main_arg2)
abbrev w2Arr (c : Dev nD) : S512x512.Idx → EReal := m ((c : Thread nD τ).loc main_arg3)
abbrev b2Arr (c : Dev nD) : S512.Idx → EReal := m ((c : Thread nD τ).loc main_arg4)

/-- The left half of `W1`'s columns, cut by the host before the region. -/
theorem V_left (c : Dev nD) : (V m c main_v0 : S512x512.Idx → EReal)
    = extractStridedSlice S512x512 ![0, 0] (w1Arr m c) slices_S512x1024_S512x512_0_0 := by
  dsimp only [Gen.V, Gen.hostOps0]; after_results

/-- The right half of `W1`'s columns. -/
theorem V_right (c : Dev nD) : (V m c main_v1 : S512x512.Idx → EReal)
    = extractStridedSlice S512x512 ![0, 512] (w1Arr m c) slices_S512x1024_S512x512_0_512 := by
  dsimp only [Gen.V, Gen.hostOps0]; after_results

/-- `b1` laid as a row. -/
theorem V_b1row (c : Dev nD) : (V m c main_v2 : S1x512.Idx → EReal) = shapeCast S1x512 (b1Arr m c) shapeCasts_S512_S1x512 := by
  dsimp only [Gen.V, Gen.hostOps0]; after_results; rfl

/-- `b2` laid as a row. -/
theorem V_b2row (c : Dev nD) : (V m c main_v3 : S1x512.Idx → EReal) = shapeCast S1x512 (b2Arr m c) shapeCasts_S512_S1x512 := by
  dsimp only [Gen.V, Gen.hostOps0]; after_results; rfl

/-! ## The index maps, decided over the grid -/

/-- The features' and the result's blocks move with the grid point along the batch axis; every other window stays put. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- The grid point as a batch item. -/
abbrev item (t : Fin cfg0.N) : Fin 64 := ⟨t.val, lt_of_lt_of_eq t.isLt N_0⟩

/-! ## The input blocks at a point, read off the arguments -/

/-- The features' block at point `t` is batch item `t`'s 32 rows. -/
theorem blk_feat (c : Dev nD) (t : Fin cfg0.N) (i : Fin 32) (q : Fin 512) :
    iblk m c 0 t (ix3 (0 : Fin 1) i q) = xArr m c (ix3 (item t) i q) := by
  obtain ⟨e0, e1, e2, -⟩ := idx_facts t
  show V m c main_arg0 (((cfg0.win 0).blk t).view.emb (ix3 (0 : Fin 1) i q)) = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 32 + 1 * i.val = i.val; omega
  | ⟨2, _⟩ => show win0_0.index t (2 : Fin 3) * 512 + 1 * q.val = q.val; omega

/-- The left half's block is the whole left half: `W1[k, q]`. -/
theorem blk_left (c : Dev nD) (t : Fin cfg0.N) (k : Fin 512) (q : Fin 512) :
    iblk m c 1 t (ix2 k q) = w1Arr m c (ix2 k (colL q)) := by
  obtain ⟨-, -, -, e0, e1, -⟩ := idx_facts t
  show V m c main_v0 (((cfg0.win 1).blk t).view.emb (ix2 k q)) = _
  rw [V_left]
  refine extractStridedSlice_apply _ _ _ _ _ fun a => ?_
  match a with
  | ⟨0, _⟩ => show k.val = 0 + (win0_1.index t (0 : Fin 2) * 512 + 1 * k.val); omega
  | ⟨1, _⟩ => show q.val = 0 + (win0_1.index t (1 : Fin 2) * 512 + 1 * q.val); omega

/-- The right half's block is the whole right half: `W1[k, 512 + q]`. -/
theorem blk_right (c : Dev nD) (t : Fin cfg0.N) (k : Fin 512) (q : Fin 512) :
    iblk m c 2 t (ix2 k q) = w1Arr m c (ix2 k (colR q)) := by
  obtain ⟨-, -, -, -, -, e0, e1, -⟩ := idx_facts t
  show V m c main_v1 (((cfg0.win 2).blk t).view.emb (ix2 k q)) = _
  rw [V_right]
  refine extractStridedSlice_apply _ _ _ _ _ fun a => ?_
  match a with
  | ⟨0, _⟩ => show k.val = 0 + (win0_2.index t (0 : Fin 2) * 512 + 1 * k.val); omega
  | ⟨1, _⟩ => show 512 + q.val = 512 + (win0_2.index t (1 : Fin 2) * 512 + 1 * q.val); omega

/-- `W2`'s block is the whole of `W2`. -/
theorem blk_w2 (c : Dev nD) (t : Fin cfg0.N) (d : Fin 512) (k : Fin 512) :
    iblk m c 3 t (ix2 d k) = w2Arr m c (ix2 d k) := by
  obtain ⟨-, -, -, -, -, -, -, e0, e1, -⟩ := idx_facts t
  show V m c main_arg3 (((cfg0.win 3).blk t).view.emb (ix2 d k)) = _
  rw [V_main_arg3]
  refine congrArg (m ((c : Thread nD τ).loc main_arg3)) (funext fun a => Fin.ext ?_)
  match a with
  | ⟨0, _⟩ => show win0_3.index t (0 : Fin 2) * 512 + 1 * d.val = d.val; omega
  | ⟨1, _⟩ => show win0_3.index t (1 : Fin 2) * 512 + 1 * k.val = k.val; omega

/-- `b1`'s block is the row of `b1`. -/
theorem blk_b1 (c : Dev nD) (t : Fin cfg0.N) (k : Fin 512) :
    iblk m c 4 t (ix2 (0 : Fin 1) k) = b1Arr m c (ix1 k) := by
  obtain ⟨-, -, -, -, -, -, -, -, -, e0, e1, -⟩ := idx_facts t
  show V m c main_v2 (((cfg0.win 4).blk t).view.emb (ix2 (0 : Fin 1) k)) = _
  rw [V_b1row]
  have he : ((cfg0.win 4).blk t).view.emb (ix2 (0 : Fin 1) k) = ix2 (0 : Fin 1) k := funext fun a => Fin.ext (by
    match a with
    | ⟨0, _⟩ => show win0_4.index t (0 : Fin 2) * 1 + 1 * 0 = 0; omega
    | ⟨1, _⟩ => show win0_4.index t (1 : Fin 2) * 512 + 1 * k.val = k.val; omega)
  rw [he]
  exact shapeCast_a_1a_apply (b1Arr m c) shapeCasts_S512_S1x512 (0 : Fin 1) k

/-- `b2`'s block is the row of `b2`. -/
theorem blk_b2 (c : Dev nD) (t : Fin cfg0.N) (d : Fin 512) :
    iblk m c 5 t (ix2 (0 : Fin 1) d) = b2Arr m c (ix1 d) := by
  obtain ⟨-, -, -, -, -, -, -, -, -, -, -, e0, e1, -⟩ := idx_facts t
  show V m c main_v3 (((cfg0.win 5).blk t).view.emb (ix2 (0 : Fin 1) d)) = _
  rw [V_b2row]
  have he : ((cfg0.win 5).blk t).view.emb (ix2 (0 : Fin 1) d) = ix2 (0 : Fin 1) d := funext fun a => Fin.ext (by
    match a with
    | ⟨0, _⟩ => show win0_5.index t (0 : Fin 2) * 1 + 1 * 0 = 0; omega
    | ⟨1, _⟩ => show win0_5.index t (1 : Fin 2) * 512 + 1 * d.val = d.val; omega)
  rw [he]
  exact shapeCast_a_1a_apply (b2Arr m c) shapeCasts_S512_S1x512 (0 : Fin 1) d

/-! ## What a point writes back, the cover, the array after the run -/

/-- The result's index under coordinate `j` of point `t`'s block: batch item `t`, the same pair and column. -/
theorem emb_out (t : Fin cfg0.N) (j : S1x992x512.Idx) :
    ((cfg0.win 6).blk t).view.emb j = ix3 (item t) (j 1) (j 2) := by
  obtain ⟨-, -, -, -, -, -, -, -, -, -, -, -, -, e0, e1, e2⟩ := idx_facts t
  refine funext fun a => Fin.ext ?_
  match a with
  | ⟨0, _⟩ => show win0_6.index t (0 : Fin 3) * 1 + 1 * (j 0).val = t.val; have hj : (j 0).val < 1 := (j 0).isLt; omega
  | ⟨1, _⟩ => show win0_6.index t (1 : Fin 3) * 992 + 1 * (j 1).val = (j 1).val; omega
  | ⟨2, _⟩ => show win0_6.index t (2 : Fin 3) * 512 + 1 * (j 2).val = (j 2).val; omega

/-- The body's block of the input blocks at point `t`, at `(u, p, d)`, is `G` of the arguments at `(t, p, d)`. -/
theorem block_read (c : Dev nD) (t : Fin cfg0.N) (u : Fin 1) (p : Fin 992) (d : Fin 512) :
    blockFn (iblk m c 0 t) (iblk m c 1 t) (iblk m c 2 t) (iblk m c 3 t) (iblk m c 4 t) (iblk m c 5 t) (ix3 u p d)
      = G (xArr m c) (w1Arr m c) (b1Arr m c) (w2Arr m c) (b2Arr m c) (ix3 (item t) p d) := by
  unfold blockFn G PairMlp.hidden projL projR
  simp only [blk_feat, blk_left, blk_right, blk_w2, blk_b1, blk_b2]

/-- WHAT POINT `t` WRITES BACK is block `t` of `G` of the arguments. -/
theorem flushed_eq (c : Dev nD) (t : Fin cfg0.N) :
    (dats m 0 c).flushed 6 t
      = ((cfg0.win 6).blk t).view.read (Elt Ideal) (G (xArr m c) (w1Arr m c) (b1Arr m c) (w2Arr m c) (b2Arr m c)) := by
  rw [flushed6, out_read (iblk m c 0 t) (iblk m c 1 t) (iblk m c 2 t) (iblk m c 3 t) (iblk m c 4 t) (iblk m c 5 t)]
  funext j
  show blockFn (iblk m c 0 t) (iblk m c 1 t) (iblk m c 2 t) (iblk m c 3 t) (iblk m c 4 t) (iblk m c 5 t) j
    = G (xArr m c) (w1Arr m c) (b1Arr m c) (w2Arr m c) (b2Arr m c) (((cfg0.win 6).blk t).view.emb j)
  rw [emb_out]
  exact (congrArg (blockFn (iblk m c 0 t) (iblk m c 1 t) (iblk m c 2 t) (iblk m c 3 t) (iblk m c 4 t) (iblk m c 5 t))
    (eq_ix3 (n0 := 1) (n1 := 992) (n2 := 512) j)).trans (block_read m c t (j 0) (j 1) (j 2))

/-- Every index of the result lies in the block of the point of its batch item. -/
theorem cover (i : S64x992x512.Idx) :
    ∃ t : Fin cfg0.N, (cfg0.win 6).flush t = true ∧ i ∈ ((cfg0.win 6).blk t).view.set := by
  have h0 : (i 0).val < 64 := (i 0).isLt
  have h1 : (i 1).val < 992 := (i 1).isLt
  have h2 : (i 2).val < 512 := (i 2).isLt
  obtain ⟨t, ht⟩ : ∃ t : Fin cfg0.N, t.val = (i 0).val := ⟨⟨(i 0).val, lt_of_lt_of_eq h0 N_0.symm⟩, rfl⟩
  refine ⟨t, flush0_6 t, ?_⟩
  obtain ⟨-, -, -, -, -, -, -, -, -, -, -, -, -, e0, e1, e2⟩ := idx_facts t
  show i ∈ ((View.whole main_v4).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 992 ≤ (i 1).val ∧ (i 1).val < win0_6.index t (1 : Fin 3) * 992 + 992; omega
  | ⟨2, _⟩ => show win0_6.index t (2 : Fin 3) * 512 ≤ (i 2).val ∧ (i 2).val < win0_6.index t (2 : Fin 3) * 512 + 512; omega

/-- THE ARRAY after the run is `G` of the arguments. -/
theorem final (c : Dev nD) :
    (dats m 0 c).arrAt 6 cfg0.N = G (xArr m c) (w1Arr m c) (b1Arr m c) (w2Arr m c) (b2Arr m c) :=
  (dats m 0 c).arrAt_eq_of_cover 6 (G (xArr m c) (w1Arr m c) (b1Arr m c) (w2Arr m c) (b2Arr m c))
    (fun t _ => flushed_eq m c t) cover

/-- The frame run re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v4) = G (xArr m c) (w1Arr m c) (b1Arr m c) (w2Arr m c) (b2Arr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefRun.lean ====
/-
  The reference program's @main read back as a straight line of its 32 host operations (the `relu` function's three
  listed at its call), and its run: every weakly fair execution ends with the result buffer at the operations'
  composed term of the argument arrays, named here `refTerm`, and the arguments unchanged.

  The term, in words: the two constant tables of pair members are wrapped as jax wraps a negative index
  (`c < 0 ? c + 32 : c`) and laid as columns; each gathers 992 rows of every batch item; the two gathers are joined
  along the last axis; the first linear layer contracts the joined 1024 columns against `W1`'s and adds `b1`; relu
  is the maximum with the zero splat; the second layer contracts against `W2` and adds `b2`.
-/
import proofs.«141854_j36833639531229_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The table of first members, as the constant's buffer holds it. -/
def tblI : IVec S992 32 := fun i => lit0 (S992.rowMajor i)
/-- The table of second members, as the constant's buffer holds it. -/
def tblJ : IVec S992 32 := fun i => lit1 (S992.rowMajor i)

/-- jax's wrap of a possibly negative index against the extent 32, then the vector laid as a column of start indices. -/
def wrapCol (c : IVec S992 32) : IVec S992x1 32 :=
  broadcastInDim S992x1 ![0] bcast_S992_S992x1_0
    (select (cmpi .slt c (broadcastInDim S992 ![] bcast_S_S992 (constantI S_ 32 0#32)))
      (addi c (broadcastInDim S992 ![] bcast_S_S992 (constantI S_ 32 32#32))) c)

/-- The rows a table selects, for every batch item: `x[:, tbl, :]`. -/
def rowsOf (x : FVec F S64x32x512 .f32) (c : IVec S992 32) : FVec F S64x992x512 .f32 :=
  Host.gather gather_S64x32x512_S992x1_S64x992x512_02_1_n_n_1_1_641512 x (wrapCol c)

/-- The pairs' joined features: first members' rows beside second members' rows. -/
def joined (x : FVec F S64x32x512 .f32) : FVec F S64x992x1024 .f32 :=
  concatenate S64x992x1024 2 [⟨S64x992x512, rowsOf x tblI⟩, ⟨S64x992x512, rowsOf x tblJ⟩]
    concatenates_S64x992x512_S64x992x512_S64x992x1024_d2

/-- A bias vector broadcast over batch items and pairs. -/
def biasAll (b : FVec F S512 .f32) : FVec F S64x992x512 .f32 :=
  broadcastInDim S64x992x512 ![0, 1, 2] bcast_S1x1x512_S64x992x512_0_1_2 (broadcastInDim S1x1x512 ![2] bcast_S512_S1x1x512_2 b)

/-- The hidden layer before the second contraction. -/
def hiddenAll (x : FVec F S64x32x512 .f32) (W1 : FVec F S512x1024 .f32) (b1 : FVec F S512 .f32) : FVec F S64x992x512 .f32 :=
  maximumf (addf (Host.dotGeneral dot_S64x992x1024_S512x1024_S64x992x512_2_1_01_0_n_n none (joined x) W1) (biasAll b1))
    (broadcastInDim S64x992x512 ![] bcast_S_S64x992x512 (constant S_ .f32 0x00000000#32))

/-- The reference's result as one term of its arguments. -/
def refTerm (x : FVec F S64x32x512 .f32) (W1 : FVec F S512x1024 .f32) (b1 : FVec F S512 .f32) (W2 : FVec F S512x512 .f32)
    (b2 : FVec F S512 .f32) : FVec F S64x992x512 .f32 :=
  addf (Host.dotGeneral dot_S64x992x512_S512x512_S64x992x512_2_1_01_0_n_n none (hiddenAll x W1 b1) W2) (biasAll b2)

/-- @main's 32 operations, in order, the call of `relu` unfolded into its three. -/
abbrev ops : List (HloOp τ sig (Elt F)) :=
  [
    nullary main_c (fun i => lit0 (S992.rowMajor i)),
    nullary main_c_0 (fun i => lit1 (S992.rowMajor i)),
    nullary main_c_1 (constantI S_ 32 0#32),
    unary main_c_1 main_v0 (broadcastInDim S992 ![] bcast_S_S992 : (⟨S_, .i32⟩ : BufTy).Contents (Elt F) → (⟨S992, .i32⟩ : BufTy).Contents (Elt F)),
    binary main_c main_v0 main_v1 (cmpi .slt : (⟨S992, .i32⟩ : BufTy).Contents (Elt F) → (⟨S992, .i32⟩ : BufTy).Contents (Elt F) → (⟨S992, .i1⟩ : BufTy).Contents (Elt F)),
    nullary main_c_2 (constantI S_ 32 32#32),
    unary main_c_2 main_v2 (broadcastInDim S992 ![] bcast_S_S992 : (⟨S_, .i32⟩ : BufTy).Contents (Elt F) → (⟨S992, .i32⟩ : BufTy).Contents (Elt F)),
    binary main_c main_v2 main_v3 (addi : (⟨S992, .i32⟩ : BufTy).Contents (Elt F) → (⟨S992, .i32⟩ : BufTy).Contents (Elt F) → (⟨S992, .i32⟩ : BufTy).Contents (Elt F)),
    ternary main_v1 main_v3 main_c main_v4 (select : (⟨S992, .i1⟩ : BufTy).Contents (Elt F) → (⟨S992, .i32⟩ : BufTy).Contents (Elt F) → (⟨S992, .i32⟩ : BufTy).Contents (Elt F) → (⟨S992, .i32⟩ : BufTy).Contents (Elt F)),
    unary main_v4 main_v5 (broadcastInDim S992x1 ![0] bcast_S992_S992x1_0 : (⟨S992, .i32⟩ : BufTy).Contents (Elt F) → (⟨S992x1, .i32⟩ : BufTy).Contents (Elt F)),
    binary main_arg0 main_v5 main_v6 ((fun x i => Host.gather gather_S64x32x512_S992x1_S64x992x512_02_1_n_n_1_1_641512 x i) : (⟨S64x32x512, .f32⟩ : BufTy).Contents (Elt F) → (⟨S992x1, .i32⟩ : BufTy).Contents (Elt F) → (⟨S64x992x512, .f32⟩ : BufTy).Contents (Elt F)),
    nullary main_c_3 (constantI S_ 32 0#32),
    unary main_c_3 main_v7 (broadcastInDim S992 ![] bcast_S_S992 : (⟨S_, .i32⟩ : BufTy).Contents (Elt F) → (⟨S992, .i32⟩ : BufTy).Contents (Elt F)),
    binary main_c_0 main_v7 main_v8 (cmpi .slt : (⟨S992, .i32⟩ : BufTy).Contents (Elt F) → (⟨S992, .i32⟩ : BufTy).Contents (Elt F) → (⟨S992, .i1⟩ : BufTy).Contents (Elt F)),
    nullary main_c_4 (constantI S_ 32 32#32),
    unary main_c_4 main_v9 (broadcastInDim S992 ![] bcast_S_S992 : (⟨S_, .i32⟩ : BufTy).Contents (Elt F) → (⟨S992, .i32⟩ : BufTy).Contents (Elt F)),
    binary main_c_0 main_v9 main_v10 (addi : (⟨S992, .i32⟩ : BufTy).Contents (Elt F) → (⟨S992, .i32⟩ : BufTy).Contents (Elt F) → (⟨S992, .i32⟩ : BufTy).Contents (Elt F)),
    ternary main_v8 main_v10 main_c_0 main_v11 (select : (⟨S992, .i1⟩ : BufTy).Contents (Elt F) → (⟨S992, .i32⟩ : BufTy).Contents (Elt F) → (⟨S992, .i32⟩ : BufTy).Contents (Elt F) → (⟨S992, .i32⟩ : BufTy).Contents (Elt F)),
    unary main_v11 main_v12 (broadcastInDim S992x1 ![0] bcast_S992_S992x1_0 : (⟨S992, .i32⟩ : BufTy).Contents (Elt F) → (⟨S992x1, .i32⟩ : BufTy).Contents (Elt F)),
    binary main_arg0 main_v12 main_v13 ((fun x i => Host.gather gather_S64x32x512_S992x1_S64x992x512_02_1_n_n_1_1_641512 x i) : (⟨S64x32x512, .f32⟩ : BufTy).Contents (Elt F) → (⟨S992x1, .i32⟩ : BufTy).Contents (Elt F) → (⟨S64x992x512, .f32⟩ : BufTy).Contents (Elt F)),
    binary main_v6 main_v13 main_v14 ((fun a b => concatenate S64x992x1024 2 [⟨S64x992x512, a⟩, ⟨S64x992x512, b⟩] concatenates_S64x992x512_S64x992x512_S64x992x1024_d2) : (⟨S64x992x512, .f32⟩ : BufTy).Contents (Elt F) → (⟨S64x992x512, .f32⟩ : BufTy).Contents (Elt F) → (⟨S64x992x1024, .f32⟩ : BufTy).Contents (Elt F)),
    binary main_v14 main_arg1 main_v15 ((fun l r => Host.dotGeneral dot_S64x992x1024_S512x1024_S64x992x512_2_1_01_0_n_n none l r) : (⟨S64x992x1024, .f32⟩ : BufTy).Contents (Elt F) → (⟨S512x1024, .f32⟩ : BufTy).Contents (Elt F) → (⟨S64x992x512, .f32⟩ : BufTy).Contents (Elt F)),
    unary main_arg2 main_v16 (broadcastInDim S1x1x512 ![2] bcast_S512_S1x1x512_2 : (⟨S512, .f32⟩ : BufTy).Contents (Elt F) → (⟨S1x1x512, .f32⟩ : BufTy).Contents (Elt F)),
    unary main_v16 main_v17 (broadcastInDim S64x992x512 ![0, 1, 2] bcast_S1x1x512_S64x992x512_0_1_2 : (⟨S1x1x512, .f32⟩ : BufTy).Contents (Elt F) → (⟨S64x992x512, .f32⟩ : BufTy).Contents (Elt F)),
    binary main_v15 main_v17 main_v18 (addf : (⟨S64x992x512, .f32⟩ : BufTy).Contents (Elt F) → (⟨S64x992x512, .f32⟩ : BufTy).Contents (Elt F) → (⟨S64x992x512, .f32⟩ : BufTy).Contents (Elt F)),
    TRef.nullary main_call0.cst (constant S_ .f32 0x00000000#32),
    TRef.unary main_call0.cst main_call0.v0 (broadcastInDim S64x992x512 ![] bcast_S_S64x992x512),
    TRef.binary (.of main_v18) main_call0.v0 main_call0.v1 maximumf,
    binary main_v19 main_arg3 main_v20 ((fun l r => Host.dotGeneral dot_S64x992x512_S512x512_S64x992x512_2_1_01_0_n_n none l r) : (⟨S64x992x512, .f32⟩ : BufTy).Contents (Elt F) → (⟨S512x512, .f32⟩ : BufTy).Contents (Elt F) → (⟨S64x992x512, .f32⟩ : BufTy).Contents (Elt F)),
    unary main_arg4 main_v21 (broadcastInDim S1x1x512 ![2] bcast_S512_S1x1x512_2 : (⟨S512, .f32⟩ : BufTy).Contents (Elt F) → (⟨S1x1x512, .f32⟩ : BufTy).Contents (Elt F)),
    unary main_v21 main_v22 (broadcastInDim S64x992x512 ![0, 1, 2] bcast_S1x1x512_S64x992x512_0_1_2 : (⟨S1x1x512, .f32⟩ : BufTy).Contents (Elt F) → (⟨S64x992x512, .f32⟩ : BufTy).Contents (Elt F)),
    binary main_v20 main_v22 main_v23 (addf : (⟨S64x992x512, .f32⟩ : BufTy).Contents (Elt F) → (⟨S64x992x512, .f32⟩ : BufTy).Contents (Elt F) → (⟨S64x992x512, .f32⟩ : BufTy).Contents (Elt F)) ]

set_option maxRecDepth 1024 in
theorem main_eq (c : Dev nD) : main (F := F) c = seq ops := by
  simp only [main, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxHeartbeats 2000000 in
/-- The fold of the 32 operations at the result buffer is `refTerm` of the valuation at the argument buffers: each
    operation writes its own buffer and reads earlier ones, so the fold unrolls to the composed term. -/
theorem out_eq (V : Valuation τ sig (Elt F)) :
    after ops V (main_v23 : DevRef τ sig)
      = refTerm (V (main_arg0 : DevRef τ sig)) (V (main_arg1 : DevRef τ sig)) (V (main_arg2 : DevRef τ sig))
          (V (main_arg3 : DevRef τ sig)) (V (main_arg4 : DevRef τ sig)) := by
  unfold refTerm hiddenAll biasAll joined rowsOf wrapCol tblI tblJ
  after_results_simp
  -- the two gathered operands sit inside the concatenation's list, where only rewriting reaches
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  -- what is left differs only by the casts of the call's typed references, which are the identity
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results

/-- On every device, from any memory with zero counters: every weakly fair execution of @main terminates with the
    result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v23).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.RefRead.lean ====
/-
  The reference's operations read at an index, at the ideal instance: the two
  gathers joined along the last axis, a bias broadcast over batch items and pairs, and the two contractions
  `[64, 992, K] × [512, K]` over the last axes as plain sums.
-/
import proofs.«141854_j36833639531229_1_alg».proof.Proof.RefRun
import proofs.«141854_j36833639531229_1_alg».proof.Proof.Spec
import Idealize.ShloMosaic.PureOps.Ideal.Laws
import Idealize.ShloMosaic.Lib.Pipeline.Value
import Idealize.ShloMosaic.Lib.ValueLayout

noncomputable section

namespace Cert.ReferenceIdeal.RefRead

open Cert.ReferenceIdeal Cert.ReferenceIdeal.Gen Cert.ReferenceIdeal.RefRun Idealize.ShloMosaic Idealize.ShloMosaic.ValueIdx
open Cert.PairMlp

/-! ## The layout operations -/

/-- The joined features at a left column: the first members' rows. -/
theorem joined_apply_left {F : FTy → Type} [FloatOps F] (x : FVec F S64x32x512 .f32) (b : Fin 64) (p : Fin 992) (q : Fin 512) :
    joined x (ix3 b p (colL q)) = rowsOf x tblI (ix3 b p q) := by
  unfold joined
  -- a column below 512 falls in the first piece, at the same coordinates
  refine concatenate_pair_apply_left (s₁ := S64x992x512) (2 : Fin 3) _ _ _ (ix3 b p (colL q)) rfl (ix3 b p q) ?_
  intro a
  match a with
  | ⟨0, _⟩ => rfl
  | ⟨1, _⟩ => rfl
  | ⟨2, _⟩ => rfl

/-- The joined features at a right column: the second members' rows. -/
theorem joined_apply_right {F : FTy → Type} [FloatOps F] (x : FVec F S64x32x512 .f32) (b : Fin 64) (p : Fin 992) (q : Fin 512) :
    joined x (ix3 b p (colR q)) = rowsOf x tblJ (ix3 b p q) := by
  unfold joined
  -- a column `512 + q` falls in the second piece, at column `q`; the other coordinates are kept
  refine concatenate_pair_apply_right (s₁ := S64x992x512) (s₂ := S64x992x512) (2 : Fin 3) _ _ _ (ix3 b p (colR q)) rfl rfl (ix3 b p q) ?_ ?_
  · intro a ha
    match a, ha with
    | ⟨0, _⟩, _ => rfl
    | ⟨1, _⟩, _ => rfl
    | ⟨2, _⟩, ha => exact absurd rfl ha
  · show q.val + 512 = 512 + q.val
    omega

/-- A bias broadcast over batch items and pairs reads the vector at the last coordinate. -/
theorem biasAll_apply {F : FTy → Type} [FloatOps F] (v : FVec F S512 .f32) (b : Fin 64) (p : Fin 992) (d : Fin 512) :
    biasAll v (ix3 b p d) = v (ix1 d) := by
  unfold biasAll
  -- the outer broadcast reads the `[1, 1, 512]` array at `(0, 0, d)`, the inner one the vector at `d`
  refine (broadcastInDim_apply (s := S1x1x512) _ bcast_S1x1x512_S64x992x512_0_1_2 _ (ix3 b p d) (ix3 0 0 d) ?_).trans ?_
  · intro a
    match a with
    | ⟨0, _⟩ => rfl
    | ⟨1, _⟩ => rfl
    | ⟨2, _⟩ => rfl
  · refine broadcastInDim_apply (s := S512) _ bcast_S512_S1x1x512_2 _ (ix3 0 0 d) (ix1 d) ?_
    intro a
    match a with
    | ⟨0, _⟩ => rfl

/-! ## The contractions -/

/-! ### The operand indices of the first contraction, axis by axis

At result index `j` and contraction index `c` the left operand is read at `(j 0, j 1, c)` and the right one at
`(j 2, c)`: a kept axis reads the result index at its place, the contracted axis reads the one coordinate of `c`. -/

/-- The left operand's batch-item coordinate is the result's. -/
private theorem d1_lhs_0 (j : S64x992x512.Idx) (c : dot_S64x992x1024_S512x1024_S64x992x512_2_1_01_0_n_n.contr.Idx) :
    (dot_S64x992x1024_S512x1024_S64x992x512_2_1_01_0_n_n.lhsIdx j c 0).val = (j 0).val := by
  unfold DotDims.lhsIdx
  rw [dif_neg (show ¬(0 : Fin S64x992x1024.rank) ∈ dot_S64x992x1024_S512x1024_S64x992x512_2_1_01_0_n_n.lhsBatch from List.not_mem_nil),
    dif_pos (show (0 : Fin S64x992x1024.rank) ∈ dot_S64x992x1024_S512x1024_S64x992x512_2_1_01_0_n_n.lhsNonContracting from by decide)]
  rfl

/-- The left operand's pair coordinate is the result's. -/
private theorem d1_lhs_1 (j : S64x992x512.Idx) (c : dot_S64x992x1024_S512x1024_S64x992x512_2_1_01_0_n_n.contr.Idx) :
    (dot_S64x992x1024_S512x1024_S64x992x512_2_1_01_0_n_n.lhsIdx j c 1).val = (j 1).val := by
  unfold DotDims.lhsIdx
  rw [dif_neg (show ¬(1 : Fin S64x992x1024.rank) ∈ dot_S64x992x1024_S512x1024_S64x992x512_2_1_01_0_n_n.lhsBatch from List.not_mem_nil),
    dif_pos (show (1 : Fin S64x992x1024.rank) ∈ dot_S64x992x1024_S512x1024_S64x992x512_2_1_01_0_n_n.lhsNonContracting from by decide)]
  rfl

/-- The left operand's last coordinate is the contraction index's coordinate. -/
private theorem d1_lhs_2 (j : S64x992x512.Idx) (c : dot_S64x992x1024_S512x1024_S64x992x512_2_1_01_0_n_n.contr.Idx) :
    (dot_S64x992x1024_S512x1024_S64x992x512_2_1_01_0_n_n.lhsIdx j c 2).val = (c ⟨0, Nat.one_pos⟩).val :=
  dot_S64x992x1024_S512x1024_S64x992x512_2_1_01_0_n_n.lhsIdx_val_of_single rfl j c

/-- The right operand's row is the result's last coordinate. -/
private theorem d1_rhs_0 (j : S64x992x512.Idx) (c : dot_S64x992x1024_S512x1024_S64x992x512_2_1_01_0_n_n.contr.Idx) :
    (dot_S64x992x1024_S512x1024_S64x992x512_2_1_01_0_n_n.rhsIdx j c 0).val = (j 2).val := by
  unfold DotDims.rhsIdx
  rw [dif_neg (show ¬(0 : Fin S512x1024.rank) ∈ dot_S64x992x1024_S512x1024_S64x992x512_2_1_01_0_n_n.rhsBatch from List.not_mem_nil),
    dif_pos (show (0 : Fin S512x1024.rank) ∈ dot_S64x992x1024_S512x1024_S64x992x512_2_1_01_0_n_n.rhsNonContracting from List.mem_singleton.mpr rfl)]
  rfl

/-- The right operand's column is the contraction index's coordinate. -/
private theorem d1_rhs_1 (j : S64x992x512.Idx) (c : dot_S64x992x1024_S512x1024_S64x992x512_2_1_01_0_n_n.contr.Idx) :
    (dot_S64x992x1024_S512x1024_S64x992x512_2_1_01_0_n_n.rhsIdx j c 1).val = (c ⟨0, Nat.one_pos⟩).val :=
  dot_S64x992x1024_S512x1024_S64x992x512_2_1_01_0_n_n.rhsIdx_val_of_single rfl j c

/-- The first layer's contraction at `(b, p, d)`: the sum over the 1024 joined columns. -/
theorem dot1_apply (l : FVec Ideal S64x992x1024 .f32) (r : FVec Ideal S512x1024 .f32) (b : Fin 64) (p : Fin 992) (d : Fin 512) :
    Host.dotGeneral dot_S64x992x1024_S512x1024_S64x992x512_2_1_01_0_n_n none l r (ix3 b p d)
      = ∑ q : Fin 1024, l (ix3 b p q) * r (ix2 d q) := by
  simp only [Host.dotGeneral]
  rw [Ideal.dotGeneral_apply]
  rw [← Equiv.sum_comp (ValueIdx.contrEquiv1 dot_S64x992x1024_S512x1024_S64x992x512_2_1_01_0_n_n 1024 rfl rfl).symm]
  refine Finset.sum_congr rfl fun k _ => ?_
  have hk := ValueIdx.contrEquiv1_symm_val dot_S64x992x1024_S512x1024_S64x992x512_2_1_01_0_n_n 1024 rfl rfl k
  have el : dot_S64x992x1024_S512x1024_S64x992x512_2_1_01_0_n_n.lhsIdx (ix3 b p d)
      ((ValueIdx.contrEquiv1 dot_S64x992x1024_S512x1024_S64x992x512_2_1_01_0_n_n 1024 rfl rfl).symm k)
      = ix3 b p k := funext fun x => Fin.ext (by
    match x with
    | ⟨0, _⟩ => exact d1_lhs_0 _ _
    | ⟨1, _⟩ => exact d1_lhs_1 _ _
    | ⟨2, _⟩ => exact (d1_lhs_2 _ _).trans hk)
  have er : dot_S64x992x1024_S512x1024_S64x992x512_2_1_01_0_n_n.rhsIdx (ix3 b p d)
      ((ValueIdx.contrEquiv1 dot_S64x992x1024_S512x1024_S64x992x512_2_1_01_0_n_n 1024 rfl rfl).symm k)
      = ix2 d k := funext fun x => Fin.ext (by
    match x with
    | ⟨0, _⟩ => exact d1_rhs_0 _ _
    | ⟨1, _⟩ => exact (d1_rhs_1 _ _).trans hk)
  rw [el, er]

/-! ### The operand indices of the second contraction, axis by axis

At result index `j` and contraction index `c` the left operand is read at `(j 0, j 1, c)` and the right one at
`(j 2, c)`: a kept axis reads the result index at its place, the contracted axis reads the one coordinate of `c`. -/

/-- The left operand's batch-item coordinate is the result's. -/
private theorem d2_lhs_0 (j : S64x992x512.Idx) (c : dot_S64x992x512_S512x512_S64x992x512_2_1_01_0_n_n.contr.Idx) :
    (dot_S64x992x512_S512x512_S64x992x512_2_1_01_0_n_n.lhsIdx j c 0).val = (j 0).val := by
  unfold DotDims.lhsIdx
  rw [dif_neg (show ¬(0 : Fin S64x992x512.rank) ∈ dot_S64x992x512_S512x512_S64x992x512_2_1_01_0_n_n.lhsBatch from List.not_mem_nil),
    dif_pos (show (0 : Fin S64x992x512.rank) ∈ dot_S64x992x512_S512x512_S64x992x512_2_1_01_0_n_n.lhsNonContracting from by decide)]
  rfl

/-- The left operand's pair coordinate is the result's. -/
private theorem d2_lhs_1 (j : S64x992x512.Idx) (c : dot_S64x992x512_S512x512_S64x992x512_2_1_01_0_n_n.contr.Idx) :
    (dot_S64x992x512_S512x512_S64x992x512_2_1_01_0_n_n.lhsIdx j c 1).val = (j 1).val := by
  unfold DotDims.lhsIdx
  rw [dif_neg (show ¬(1 : Fin S64x992x512.rank) ∈ dot_S64x992x512_S512x512_S64x992x512_2_1_01_0_n_n.lhsBatch from List.not_mem_nil),
    dif_pos (show (1 : Fin S64x992x512.rank) ∈ dot_S64x992x512_S512x512_S64x992x512_2_1_01_0_n_n.lhsNonContracting from by decide)]
  rfl

/-- The left operand's last coordinate is the contraction index's coordinate. -/
private theorem d2_lhs_2 (j : S64x992x512.Idx) (c : dot_S64x992x512_S512x512_S64x992x512_2_1_01_0_n_n.contr.Idx) :
    (dot_S64x992x512_S512x512_S64x992x512_2_1_01_0_n_n.lhsIdx j c 2).val = (c ⟨0, Nat.one_pos⟩).val :=
  dot_S64x992x512_S512x512_S64x992x512_2_1_01_0_n_n.lhsIdx_val_of_single rfl j c

/-- The right operand's row is the result's last coordinate. -/
private theorem d2_rhs_0 (j : S64x992x512.Idx) (c : dot_S64x992x512_S512x512_S64x992x512_2_1_01_0_n_n.contr.Idx) :
    (dot_S64x992x512_S512x512_S64x992x512_2_1_01_0_n_n.rhsIdx j c 0).val = (j 2).val := by
  unfold DotDims.rhsIdx
  rw [dif_neg (show ¬(0 : Fin S512x512.rank) ∈ dot_S64x992x512_S512x512_S64x992x512_2_1_01_0_n_n.rhsBatch from List.not_mem_nil),
    dif_pos (show (0 : Fin S512x512.rank) ∈ dot_S64x992x512_S512x512_S64x992x512_2_1_01_0_n_n.rhsNonContracting from List.mem_singleton.mpr rfl)]
  rfl

/-- The right operand's column is the contraction index's coordinate. -/
private theorem d2_rhs_1 (j : S64x992x512.Idx) (c : dot_S64x992x512_S512x512_S64x992x512_2_1_01_0_n_n.contr.Idx) :
    (dot_S64x992x512_S512x512_S64x992x512_2_1_01_0_n_n.rhsIdx j c 1).val = (c ⟨0, Nat.one_pos⟩).val :=
  dot_S64x992x512_S512x512_S64x992x512_2_1_01_0_n_n.rhsIdx_val_of_single rfl j c

/-- The second layer's contraction at `(b, p, d)`: the sum over the 512 hidden units. -/
theorem dot2_apply (l : FVec Ideal S64x992x512 .f32) (r : FVec Ideal S512x512 .f32) (b : Fin 64) (p : Fin 992) (d : Fin 512) :
    Host.dotGeneral dot_S64x992x512_S512x512_S64x992x512_2_1_01_0_n_n none l r (ix3 b p d)
      = ∑ k : Fin 512, l (ix3 b p k) * r (ix2 d k) := by
  simp only [Host.dotGeneral]
  rw [Ideal.dotGeneral_apply]
  rw [← Equiv.sum_comp (ValueIdx.contrEquiv1 dot_S64x992x512_S512x512_S64x992x512_2_1_01_0_n_n 512 rfl rfl).symm]
  refine Finset.sum_congr rfl fun k _ => ?_
  have hk := ValueIdx.contrEquiv1_symm_val dot_S64x992x512_S512x512_S64x992x512_2_1_01_0_n_n 512 rfl rfl k
  have el : dot_S64x992x512_S512x512_S64x992x512_2_1_01_0_n_n.lhsIdx (ix3 b p d)
      ((ValueIdx.contrEquiv1 dot_S64x992x512_S512x512_S64x992x512_2_1_01_0_n_n 512 rfl rfl).symm k)
      = ix3 b p k := funext fun x => Fin.ext (by
    match x with
    | ⟨0, _⟩ => exact d2_lhs_0 _ _
    | ⟨1, _⟩ => exact d2_lhs_1 _ _
    | ⟨2, _⟩ => exact (d2_lhs_2 _ _).trans hk)
  have er : dot_S64x992x512_S512x512_S64x992x512_2_1_01_0_n_n.rhsIdx (ix3 b p d)
      ((ValueIdx.contrEquiv1 dot_S64x992x512_S512x512_S64x992x512_2_1_01_0_n_n 512 rfl rfl).symm k)
      = ix2 d k := funext fun x => Fin.ext (by
    match x with
    | ⟨0, _⟩ => exact d2_rhs_0 _ _
    | ⟨1, _⟩ => exact (d2_rhs_1 _ _).trans hk)
  rw [el, er]

end Cert.ReferenceIdeal.RefRead

end
-- ==== Proof.LibGatherMid.lean ====
/-
  A gather of whole rows of every batch item read at an index. For an operand [B, N, C] and a column [R, 1] of start
  indices, the gather that keeps the batch axis and the column axis whole and collapses the row axis, x[:, idx[:, 0], :],
  reads at (b, r, c) the operand's batch item b, row at the start index idx[r, 0] taken as a signed integer and clamped
  into [0, N - 1], column c.
-/
import Idealize.ShloMosaic.PureOps.Ideal
import Idealize.ShloMosaic.Lib.ValueIdx

noncomputable section

namespace Idealize.ShloMosaic.GatherMid

open Idealize.ShloMosaic Idealize.ShloMosaic.ValueIdx

/-- A natural number clamped at `N - 1` is below a positive `N`. -/
theorem clamp_lt {N : Nat} (hN : 0 < N) (k : Nat) : min k (N - 1) < N := by omega

variable {α : Type}

/-- The dimension numbers of `x[:, idx[:, 0], :]` for an operand `[B, N, C]`, a column `[R, 1]` of start indices and a
    result `[B, R, C]`: the middle (row) axis collapsed and mapped by the start index, the batch axis and the column axis
    kept whole as the result's two offset axes; their conditions `wf` are decided on a program's literal shapes. -/
abbrev midDims (B N C R : Nat)
    (wf : GatherDims.WF ⟨3, ![B, N, C]⟩ ⟨2, ![R, 1]⟩ ⟨3, ![B, R, C]⟩ [0, 2] [1] [] [1] [] 1 ![B, 1, C]) :
    GatherDims ⟨3, ![B, N, C]⟩ ⟨2, ![R, 1]⟩ ⟨3, ![B, R, C]⟩ where
  offsetDims := [0, 2]
  collapsedSliceDims := [1]
  operandBatchingDims := []
  startIndicesBatchingDims := []
  startIndexMap := [1]
  indexVectorDim := 1
  sliceSizes := ![B, 1, C]
  wf := wf

/-- The conditions hold only for an operand with at least one row: a slice of one row fits. -/
theorem mid_pos {B N C R : Nat}
    (wf : GatherDims.WF ⟨3, ![B, N, C]⟩ ⟨2, ![R, 1]⟩ ⟨3, ![B, R, C]⟩ [0, 2] [1] [] [1] [] 1 ![B, 1, C]) : 0 < N :=
  (midDims B N C R wf).slice_le 1

/-- THE GATHER READ AT `(b, r, c)`: batch item `b`'s row at the start index `idx[r, 0]`, read signed and clamped into
    `[0, N − 1]`, at column `c`. -/
theorem gather_mid_apply {B N C R w : Nat}
    (wf : GatherDims.WF ⟨3, ![B, N, C]⟩ ⟨2, ![R, 1]⟩ ⟨3, ![B, R, C]⟩ [0, 2] [1] [] [1] [] 1 ![B, 1, C])
    (x : (⟨3, ![B, N, C]⟩ : Shape).Idx → α) (idx : IVec ⟨2, ![R, 1]⟩ w) (b : Fin B) (r : Fin R) (c : Fin C) :
    Host.gather (midDims B N C R wf) x idx (ix3 b r c)
      = x (ix3 b ⟨min (idx (ix2 r 0)).toInt.toNat (N - 1), clamp_lt (mid_pos wf) _⟩ c) := by
  unfold Host.gather
  congr 1
  funext a
  refine Fin.ext ?_
  match a with
  | ⟨0, _⟩ =>
    -- the batch axis: no start, no batching coordinate, the result's first offset coordinate
    show (midDims B N C R wf).start (ix3 b r c) idx 0 + (midDims B N C R wf).batchCoord (ix3 b r c) 0
      + (midDims B N C R wf).offCoord (ix3 b r c) 0 = b.val
    rw [GatherDims.batchCoord_eq_zero _ _ _ List.not_mem_nil]
    unfold GatherDims.start
    rw [dif_neg (show (0 : Fin 3) ∉ (midDims B N C R wf).startIndexMap from (by decide : (0 : Fin 3) ∉ ([1] : List (Fin 3))))]
    simp only [Nat.add_zero, Nat.zero_add]
    rfl
  | ⟨1, _⟩ =>
    -- the row axis: collapsed, so only the clamped start index
    show (midDims B N C R wf).start (ix3 b r c) idx 1 + (midDims B N C R wf).batchCoord (ix3 b r c) 1
      + (midDims B N C R wf).offCoord (ix3 b r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims B N C R wf).startIndexMap from List.mem_singleton.mpr rfl)]
    have hsi : (midDims B N C R wf).siIdx (ix3 b r c) ⟨List.idxOf (1 : Fin 3) (midDims B N C R wf).startIndexMap,
        List.idxOf_lt_length_iff.2 (List.mem_singleton.mpr rfl)⟩ = ix2 r 0 := by
      funext e; refine Fin.ext ?_
      match e with
      | ⟨0, _⟩ => rfl
      | ⟨1, _⟩ => rfl
    rw [hsi]
    rfl
  | ⟨2, _⟩ =>
    -- the column axis: no start, no batching coordinate, the result's second offset coordinate
    show (midDims B N C R wf).start (ix3 b r c) idx 2 + (midDims B N C R wf).batchCoord (ix3 b r c) 2
      + (midDims B N C R wf).offCoord (ix3 b r c) 2 = c.val
    rw [GatherDims.batchCoord_eq_zero _ _ _ List.not_mem_nil]
    unfold GatherDims.start
    rw [dif_neg (show (2 : Fin 3) ∉ (midDims B N C R wf).startIndexMap from (by decide : (2 : Fin 3) ∉ ([1] : List (Fin 3))))]
    simp only [Nat.add_zero, Nat.zero_add]
    rfl

end Idealize.ShloMosaic.GatherMid

end
-- ==== Proof.RefGather.lean ====
/-
  The reference's two constant tables of pair members read at an entry, and the rows a table selects: a gather of
  whole rows of every batch item, `x[:, tbl, :]`, read at an index.
-/
import proofs.«141854_j36833639531229_1_alg».proof.Proof.RefRun
import proofs.«141854_j36833639531229_1_alg».proof.Proof.Spec
import proofs.«141854_j36833639531229_1_alg».proof.Proof.LibGatherMid
import Idealize.ShloMosaic.PureOps.Ideal.Laws
import Idealize.ShloMosaic.Lib.Pipeline.Value
import Idealize.ShloMosaic.Lib.ValueLayout
import Idealize.ShloMosaic.Lib.DynamicIndex

noncomputable section

namespace Cert.ReferenceIdeal.RefGather

open Cert.ReferenceIdeal Cert.ReferenceIdeal.Gen Cert.ReferenceIdeal.RefRun Idealize.ShloMosaic Idealize.ShloMosaic.ValueIdx
open Cert.PairMlp

/-! ## The tables -/

/-- Every entry of the first printed table: entry `i` is the word of `i / 31`. -/
private theorem lit0t_all : ∀ i, i < 992 → lit0t i = BitVec.ofNat 32 (i / 31) := by decide +kernel

/-- Every entry of the second printed table: entry `i` is the word of the `(i % 31)`-th number other than `i / 31`. -/
private theorem lit1t_all :
    ∀ i, i < 992 → lit1t i = BitVec.ofNat 32 (if i % 31 < i / 31 then i % 31 else i % 31 + 1) := by decide +kernel

/-- The table of first members holds `p / 31` at `p`. -/
theorem tblI_apply (p : Fin 992) : tblI (ix1 p) = BitVec.ofNat 32 (pairI p).val := by
  have hp : (S992.rowMajor (ix1 p)).val = p.val := Shape.rowMajor_val_one (ix1 p)
  show lit0t (S992.rowMajor (ix1 p)).val = _
  rw [hp, pairI_val]
  exact lit0t_all p.val p.isLt

/-- The table of second members holds, at `p`, the `(p % 31)`-th row other than `p / 31`. -/
theorem tblJ_apply (p : Fin 992) : tblJ (ix1 p) = BitVec.ofNat 32 (pairJ p).val := by
  have hp : (S992.rowMajor (ix1 p)).val = p.val := Shape.rowMajor_val_one (ix1 p)
  show lit1t (S992.rowMajor (ix1 p)).val = _
  rw [hp, pairJ_val]
  exact lit1t_all p.val p.isLt

/-! ## The gather -/

/-- The column of start indices at `(p, 0)`: where the table holds the word of a row number `r < 32`, the wrap of a
    negative index leaves it alone (the word is not negative read signed). -/
private theorem wrapCol_apply (c : IVec S992 32) (p : Fin 992) (r : Fin 32) (hr : c (ix1 p) = BitVec.ofNat 32 r.val) :
    wrapCol c (ix2 p 0) = BitVec.ofNat 32 r.val := by
  unfold wrapCol
  refine (broadcastInDim_apply _ _ _ (ix2 p 0) (ix1 p) (fun a => match a with | ⟨0, _⟩ => rfl)).trans ?_
  have hnn : (c (ix1 p)).slt 0#32 = false := by
    rw [hr]
    simp only [BitVec.slt, BitVec.toInt_zero, decide_eq_false_iff_not, Int.not_lt]
    rw [toInt_ofNat_of_lt (by have := r.isLt; omega)]
    omega
  show (if BitVec.ofBool ((c (ix1 p)).slt 0#32) = 1 then _ else _) = _
  rw [hnn, if_neg (by decide)]
  exact hr

/-- The rows a table selects: where the table holds the word of a row number `r < 32` at `p`, the gather reads row
    `r` of every batch item (the wrap of a negative index and the clamp into `[0, 31]` both leave `r` alone). -/
theorem rowsOf_apply {F : FTy → Type} [FloatOps F] (x : FVec F S64x32x512 .f32) (c : IVec S992 32) (b : Fin 64) (p : Fin 992) (q : Fin 512)
    (r : Fin 32) (hr : c (ix1 p) = BitVec.ofNat 32 r.val) :
    rowsOf x c (ix3 b p q) = x (ix3 b r q) := by
  unfold rowsOf
  refine (GatherMid.gather_mid_apply (B := 64) (N := 32) (C := 512) (R := 992)
    Facts₀.gather_S64x32x512_S992x1_S64x992x512_02_1_n_n_1_1_641512_wf x (wrapCol c) b p q).trans ?_
  refine congrArg (fun k => x (ix3 b k q)) (Fin.ext ?_)
  show min (wrapCol c (ix2 p 0)).toInt.toNat (32 - 1) = r.val
  rw [wrapCol_apply c p r hr, toInt_ofNat_of_lt (by have := r.isLt; omega)]
  have := r.isLt
  omega

end Cert.ReferenceIdeal.RefGather

end
-- ==== Proof.RefValue.lean ====
/-
  The reference's result term is `Cert.PairMlp.G` of its arguments, index by index.

  At pair `p` the joined features are row `p / 31` beside the `(p % 31)`-th other row (the tables hold exactly those
  row numbers, and the gather reads the row its table names); the contraction over the 1024 joined columns is the sum
  over the left half plus the sum over the right half; relu is the maximum with zero; the second contraction and the
  bias are `G`'s own.
-/
import proofs.«141854_j36833639531229_1_alg».proof.Proof.RefRead
import proofs.«141854_j36833639531229_1_alg».proof.Proof.RefGather

noncomputable section

namespace Cert.ReferenceIdeal.RefValue

open Cert.ReferenceIdeal Cert.ReferenceIdeal.Gen Cert.ReferenceIdeal.RefRun Cert.ReferenceIdeal.RefRead Cert.ReferenceIdeal.RefGather
open Idealize.ShloMosaic Idealize.ShloMosaic.ValueIdx Cert.PairMlp

/-- The joined features at a left column: the first member's row. -/
theorem joined_left (x : FVec Ideal S64x32x512 .f32) (b : Fin 64) (p : Fin 992) (q : Fin 512) :
    joined x (ix3 b p (colL q)) = x (ix3 b (pairI p) q) :=
  (joined_apply_left x b p q).trans (rowsOf_apply x tblI b p q (pairI p) (tblI_apply p))

/-- The joined features at a right column: the second member's row. -/
theorem joined_right (x : FVec Ideal S64x32x512 .f32) (b : Fin 64) (p : Fin 992) (q : Fin 512) :
    joined x (ix3 b p (colR q)) = x (ix3 b (pairJ p) q) :=
  (joined_apply_right x b p q).trans (rowsOf_apply x tblJ b p q (pairJ p) (tblJ_apply p))

/-- The zero splat reads zero. -/
theorem zero_read (j : S64x992x512.Idx) :
    broadcastInDim S64x992x512 ![] bcast_S_S64x992x512 (constant (F := Ideal) S_ .f32 0x00000000#32) j = 0 :=
  Ideal.ofBits_zero_f32

/-- The reference's hidden layer at `(b, p, k)` is the specification's hidden unit: the sum over the joined columns
    splits into the two halves, in the other order. -/
theorem hidden_read (x : FVec Ideal S64x32x512 .f32) (W1 : FVec Ideal S512x1024 .f32) (b1 : FVec Ideal S512 .f32)
    (b : Fin 64) (p : Fin 992) (k : Fin 512) :
    hiddenAll x W1 b1 (ix3 b p k) = PairMlp.hidden x W1 b1 b p k := by
  unfold hiddenAll
  rw [maximumf_apply, zero_read, addf_apply, dot1_apply, biasAll_apply, sum_halves]
  simp only [joined_left, joined_right]
  unfold PairMlp.hidden projL projR
  rw [add_comm (∑ q : Fin 512, x (ix3 b (pairI p) q) * W1 (ix2 k (colL q)))]

/-- THE REFERENCE'S RESULT is `G` of its arguments. -/
theorem refTerm_eq (x : FVec Ideal S64x32x512 .f32) (W1 : FVec Ideal S512x1024 .f32) (b1 : FVec Ideal S512 .f32)
    (W2 : FVec Ideal S512x512 .f32) (b2 : FVec Ideal S512 .f32) :
    refTerm x W1 b1 W2 b2 = G x W1 b1 W2 b2 := by
  funext i
  obtain ⟨b, p, d, rfl⟩ : ∃ (b : Fin 64) (p : Fin 992) (d : Fin 512), i = ix3 b p d := ⟨i 0, i 1, i 2, eq_ix3 i⟩
  unfold refTerm G
  rw [addf_apply, dot2_apply, biasAll_apply]
  simp only [hidden_read]

end Cert.ReferenceIdeal.RefValue

end
-- ==== Proof.lean ====
/-
  The proof of `Cert.Claim`: the three frames, `preserves` (the ideal pass rewrote nothing, so it is `True`), and the
  equality of the two idealized programs' results over the extended reals.

  Both programs compute, for every batch item `b`, every ordered pair `p = (i, j)` of distinct rows among 32, and every
  output unit `d`, `Σ_k relu(W1 · (x[b,i] ++ x[b,j]) + b1)[k] · W2[d,k] + b2[d]` (`Cert.PairMlp.G`). The kernel splits the
  first layer over the two halves of `W1`'s columns and builds the pairs by slicing and stacking rows of the two
  projections, one batch item per grid point; the reference gathers the pairs' rows by two constant tables and joins
  them before one contraction. A sum over the 1024 joined columns is the sum over the left half plus the sum over the
  right half, and addition of extended reals is commutative: no finiteness of the inputs is used.
-/
import proofs.«141854_j36833639531229_1_alg».proof.Defs
import proofs.«141854_j36833639531229_1_alg».proof.Proof.Gen.Kernel
import proofs.«141854_j36833639531229_1_alg».proof.Proof.Gen.Kernel.Skeleton
import proofs.«141854_j36833639531229_1_alg».proof.Proof.Gen.Kernel.Launch
import proofs.«141854_j36833639531229_1_alg».proof.Proof.Gen.Kernel.Points
import proofs.«141854_j36833639531229_1_alg».proof.Proof.Gen.Kernel.Frame
import proofs.«141854_j36833639531229_1_alg».proof.Proof.Gen.KernelIdeal
import proofs.«141854_j36833639531229_1_alg».proof.Proof.Gen.KernelIdeal.Skeleton
import proofs.«141854_j36833639531229_1_alg».proof.Proof.Gen.KernelIdeal.Launch
import proofs.«141854_j36833639531229_1_alg».proof.Proof.Gen.KernelIdeal.Points
import proofs.«141854_j36833639531229_1_alg».proof.Proof.Gen.KernelIdeal.Frame
import proofs.«141854_j36833639531229_1_alg».proof.Proof.Gen.ReferenceIdeal
import proofs.«141854_j36833639531229_1_alg».proof.Proof.Gen.Pre_finite_inputs
import proofs.«141854_j36833639531229_1_alg».proof.Proof.KernelValue
import proofs.«141854_j36833639531229_1_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefRun.run (F := Ideal) m ρ)

/-- Both idealized programs end with their result array at `G` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact Cert.ReferenceIdeal.RefValue.refTerm_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
